-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_cst_11) = v1 c
          ∧ r.2.mem ((c.tc : Thread Cert.ReferenceIdeal.nD Cert.ReferenceIdeal.τ).loc Cert.ReferenceIdeal.main_cst_12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x321 : Shape := ⟨3, ![64, 512, 321]⟩
abbrev S321 : Shape := ⟨1, ![321]⟩
abbrev S1008x96 : Shape := ⟨2, ![1008, 96]⟩
abbrev S96 : Shape := ⟨1, ![96]⟩
abbrev S_ : Shape := ⟨0, ![]⟩

class Facts : Prop where
  bcast_S_S64x512x321 : S_.BroadcastsInDim S64x512x321 (![] : Fin 0 → Fin S64x512x321.rank)
  reducesTo_S64x512x321_S_d0_1_2 : S64x512x321.ReducesTo [0, 1, 2] S_
  h_S_ : 0 < S_.numel
  bcast_S_S321 : S_.BroadcastsInDim S321 (![] : Fin 0 → Fin S321.rank)
  reducesTo_S321_S_d0 : S321.ReducesTo [0] S_
  bcast_S_S1008x96 : S_.BroadcastsInDim S1008x96 (![] : Fin 0 → Fin S1008x96.rank)
  reducesTo_S1008x96_S_d0_1 : S1008x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S1008x96 1) : IVec S_ 1 :=
  let main_c_5 : IVec S_ 1 := constantI S_ 1 1#1
  let main_v17 : IVec S_ 1 := (fun x v => Host.reduce IntOp.andi x v reducesTo_S1008x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S64x512x321 .f32) (main_arg1 : FVec F S321 .f32) (main_arg2 : FVec F S321 .f32) (main_arg3 : FVec F S1008x96 .f32) (main_arg4 : FVec F S96 .f32) : IVec S_ 1 :=
  let main_v0 : FVec F S64x512x321 .f32 := Host.absf main_arg0
  let main_cst : FVec F S_ .f32 := constant S_ .f32 0x7F800000#32
  let main_v1 : FVec F S64x512x321 .f32 := broadcastInDim S64x512x321 ![] bcast_S_S64x512x321 main_cst
  let main_v2 : IVec S64x512x321 1 := cmpf .olt main_v0 main_v1
  let main_c : IVec S_ 1 := constantI S_ 1 1#1
  let main_v3 : IVec S_ 1 := (fun x v => Host.reduce IntOp.andi x v reducesTo_S64x512x321_S_d0_1_2 h_S_) main_v2 main_c
  let main_v4 : FVec F S321 .f32 := Host.absf main_arg1
  let main_cst_0 : FVec F S_ .f32 := constant S_ .f32 0x7F800000#32
  let main_v5 : FVec F S321 .f32 := broadcastInDim S321 ![] bcast_S_S321 main_cst_0
  let main_v6 : IVec S321 1 := cmpf .olt main_v4 main_v5
  let main_c_1 : IVec S_ 1 := constantI S_ 1 1#1
  let main_v7 : IVec S_ 1 := (fun x v => Host.reduce IntOp.andi x v reducesTo_S321_S_d0 h_S_) main_v6 main_c_1
  let main_v8 : IVec S_ 1 := andi main_v3 main_v7
  let main_v9 : FVec F S321 .f32 := Host.absf main_arg2
  let main_cst_2 : FVec F S_ .f32 := constant S_ .f32 0x7F800000#32
  let main_v10 : FVec F S321 .f32 := broadcastInDim S321 ![] bcast_S_S321 main_cst_2
  let main_v11 : IVec S321 1 := cmpf .olt main_v9 main_v10
  let main_c_3 : IVec S_ 1 := constantI S_ 1 1#1
  let main_v12 : IVec S_ 1 := (fun x v => Host.reduce IntOp.andi x v reducesTo_S321_S_d0 h_S_) main_v11 main_c_3
  let main_v13 : IVec S_ 1 := andi main_v8 main_v12
  let main_v14 : FVec F S1008x96 .f32 := Host.absf main_arg3
  let main_cst_4 : FVec F S_ .f32 := constant S_ .f32 0x7F800000#32
  let main_v15 : FVec F S1008x96 .f32 := broadcastInDim S1008x96 ![] bcast_S_S1008x96 main_cst_4
  let main_v16 : IVec S1008x96 1 := cmpf .olt main_v14 main_v15
  fn_part1 (F := F) main_arg4 main_v13 main_v16
-- ==== Kernel.lean ====
abbrev S64x512x321 : Shape := ⟨3, ![64, 512, 321]⟩
abbrev S321 : Shape := ⟨1, ![321]⟩
abbrev S1008x96 : Shape := ⟨2, ![1008, 96]⟩
abbrev S96 : Shape := ⟨1, ![96]⟩
abbrev S_ : Shape := ⟨0, ![]⟩
abbrev S1008x128 : Shape := ⟨2, ![1008, 128]⟩
abbrev S63x2x8x128 : Shape := ⟨4, ![63, 2, 8, 128]⟩
abbrev S63x1x8x128 : Shape := ⟨4, ![63, 1, 8, 128]⟩
abbrev S63x8x128 : Shape := ⟨3, ![63, 8, 128]⟩
abbrev S64x8x128 : Shape := ⟨3, ![64, 8, 128]⟩
abbrev S512x128 : Shape := ⟨2, ![512, 128]⟩
abbrev S128x512 : Shape := ⟨2, ![128, 512]⟩
abbrev S128 : Shape := ⟨1, ![128]⟩
abbrev S128x1 : Shape := ⟨2, ![128, 1]⟩
abbrev S1x321 : Shape := ⟨2, ![1, 321]⟩
abbrev S64x96x321 : Shape := ⟨3, ![64, 96, 321]⟩
abbrev S1x512x321 : Shape := ⟨3, ![1, 512, 321]⟩
abbrev S1x96x321 : Shape := ⟨3, ![1, 96, 321]⟩
abbrev S512x321 : Shape := ⟨2, ![512, 321]⟩
abbrev S128x321 : Shape := ⟨2, ![128, 321]⟩
abbrev S96x321 : Shape := ⟨2, ![96, 321]⟩

abbrev nBuf : Space → Nat
  | .hbm => 43
  | .vmem => 10
  | .smem => 0
  | _ => 0

abbrev bufTy : (tb : Table) → Fin (tcTables nBuf tb) → BufTy
  | .hbm, ⟨0, _⟩ => ⟨S64x512x321, .f32⟩
  | .hbm, ⟨1, _⟩ => ⟨S321, .f32⟩
  | .hbm, ⟨2, _⟩ => ⟨S321, .f32⟩
  | .hbm, ⟨3, _⟩ => ⟨S1008x96, .f32⟩
  | .hbm, ⟨4, _⟩ => ⟨S96, .f32⟩
  | .hbm, ⟨5, _⟩ => ⟨S_, .i32⟩
  | .hbm, ⟨6, _⟩ => ⟨S_, .f32⟩
  | .hbm, ⟨7, _⟩ => ⟨S1008x128, .f32⟩
  | .hbm, ⟨8, _⟩ => ⟨S63x2x8x128, .f32⟩
  | .hbm, ⟨9, _⟩ => ⟨S63x1x8x128, .f32⟩
  | .hbm, ⟨10, _⟩ => ⟨S63x8x128, .f32⟩
  | .hbm, ⟨11, _⟩ => ⟨S_, .i32⟩
  | .hbm, ⟨12, _⟩ => ⟨S_, .f32⟩
  | .hbm, ⟨13, _⟩ => ⟨S64x8x128, .f32⟩
  | .hbm, ⟨14, _⟩ => ⟨S63x1x8x128, .f32⟩
  | .hbm, ⟨15, _⟩ => ⟨S63x8x128, .f32⟩
  | .hbm, ⟨16, _⟩ => ⟨S_, .i32⟩
  | .hbm, ⟨17, _⟩ => ⟨S_, .f32⟩
  | .hbm, ⟨18, _⟩ => ⟨S64x8x128, .f32⟩
  | .hbm, ⟨19, _⟩ => ⟨S64x8x128, .f32⟩
  | .hbm, ⟨20, _⟩ => ⟨S512x128, .f32⟩
  | .hbm, ⟨21, _⟩ => ⟨S_, .i32⟩
  | .hbm, ⟨22, _⟩ => ⟨S_, .f32⟩
  | .hbm, ⟨23, _⟩ => ⟨S512x128, .f32⟩
  | .hbm, ⟨24, _⟩ => ⟨S128x512, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S1x321, .f32⟩
  | .hbm, ⟨33, _⟩ => ⟨S1x321, .f32⟩
  | .hbm, ⟨34, _⟩ => ⟨S_, .f32⟩
  | .hbm, ⟨35, _⟩ => ⟨S1x321, .f32⟩
  | .hbm, ⟨36, _⟩ => ⟨S1x321, .f32⟩
  | .hbm, ⟨37, _⟩ => ⟨S_, .f32⟩
  | .hbm, ⟨38, _⟩ => ⟨S1x321, .f32⟩
  | .hbm, ⟨39, _⟩ => ⟨S1x321, .f32⟩
  | .hbm, ⟨40, _⟩ => ⟨S64x96x321, .f32⟩
  | .hbm, ⟨41, _⟩ => ⟨S_, .f32⟩
  | .hbm, ⟨42, _⟩ => ⟨S_, .f32⟩
  | .local _ .vmem, ⟨0, _⟩ => ⟨S1x512x321, .f32⟩
  | .local _ .vmem, ⟨1, _⟩ => ⟨S1x512x321, .f32⟩
  | .local _ .vmem, ⟨2, _⟩ => ⟨S1x321, .f32⟩
  | .local _ .vmem, ⟨3, _⟩ => ⟨S1x321, .f32⟩
  | .local _ .vmem, ⟨4, _⟩ => ⟨S1x321, .f32⟩
  | .local _ .vmem, ⟨5, _⟩ => ⟨S128x512, .f32⟩
  | .local _ .vmem, ⟨6, _⟩ => ⟨S128x1, .f32⟩
  | .local _ .vmem, ⟨7, _⟩ => ⟨S128x1, .f32⟩
  | .local _ .vmem, ⟨8, _⟩ => ⟨S1x96x321, .f32⟩
  | .local _ .vmem, ⟨9, _⟩ => ⟨S1x96x321, .f32⟩
  | _, _ => ⟨S64x512x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_call0_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c_0 : Ref sig .tc := ⟨.hbm, 11, rfl⟩
abbrev main_call0_call1_v0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_1 : Ref sig .tc := ⟨.hbm, 16, rfl⟩
abbrev main_call0_call2_v0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_c_2 : Ref sig .tc := ⟨.hbm, 21, rfl⟩
abbrev main_call0_call3_v0 : Ref sig .tc := ⟨.hbm, 22, rfl⟩
abbrev main_call0_v10 : Ref sig .tc := ⟨.hbm, 23, rfl⟩
abbrev main_call0_v11 : Ref sig .tc := ⟨.hbm, 24, rfl⟩
abbrev main_call0_cst : Ref sig .tc := ⟨.hbm, 25, rfl⟩
abbrev main_call0_v12 : Ref sig .tc := ⟨.hbm, 26, rfl⟩
abbrev main_call0_v13 : Ref sig .tc := ⟨.hbm, 27, rfl⟩
abbrev main_call0_c_3 : Ref sig .tc := ⟨.hbm, 28, rfl⟩
abbrev main_call0_call4_v0 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_cst_4 : Ref sig .tc := ⟨.hbm, 34, rfl⟩
abbrev main_call0_v18 : Ref sig .tc := ⟨.hbm, 35, rfl⟩
abbrev main_call0_v19 : Ref sig .tc := ⟨.hbm, 36, rfl⟩
abbrev main_call0_cst_5 : Ref sig .tc := ⟨.hbm, 37, rfl⟩
abbrev main_call0_v20 : Ref sig .tc := ⟨.hbm, 38, rfl⟩
abbrev main_call0_v21 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x321 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x321 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x321 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x321 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x96x321 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S1008x96_S1008x128_000_0320 : S1008x96.Pads (![0, 0] : Fin 2 → Nat) ![0, 32] ![0, 0] S1008x128
  h_S_ : 0 < S_.numel
  shapeCasts_S1008x128_S63x2x8x128 : S1008x128.ShapeCasts S63x2x8x128
  slices_S63x2x8x128_S63x1x8x128_0_0_0_0 : S63x2x8x128.Slices ![0, 0, 0, 0] S63x1x8x128
  shapeCasts_S63x1x8x128_S63x8x128 : S63x1x8x128.ShapeCasts S63x8x128
  pads_S63x8x128_S64x8x128_010_000_000 : S63x8x128.Pads (![0, 0, 0] : Fin 3 → Nat) ![1, 0, 0] ![0, 0, 0] S64x8x128
  slices_S63x2x8x128_S63x1x8x128_0_1_0_0 : S63x2x8x128.Slices ![0, 1, 0, 0] S63x1x8x128
  pads_S63x8x128_S64x8x128_100_000_000 : S63x8x128.Pads (![1, 0, 0] : Fin 3 → Nat) ![0, 0, 0] ![0, 0, 0] S64x8x128
  shapeCasts_S64x8x128_S512x128 : S64x8x128.ShapeCasts S512x128
  pads_S512x128_S512x128_000_000 : S512x128.Pads (![0, 0] : Fin 2 → Nat) ![0, 0] ![0, 0] S512x128
  transposes_S512x128_S128x512_1_0 : S512x128.Transposes [1, 0] S128x512
  reducesTo_S1008x128_S128_d0 : S1008x128.ReducesTo [0] S128
  shapeCasts_S128_S128x1 : S128.ShapeCasts S128x1
  pads_S96_S128_0320 : S96.Pads (![0] : Fin 1 → Nat) ![32] ![0] S128
  shapeCasts_S321_S1x321 : S321.ShapeCasts S1x321
  bcast_S_S1x321 : S_.BroadcastsInDim S1x321 (![] : Fin 0 → Fin S1x321.rank)
  inb_S1x512x321_S1x512x321_0_0_0 : ∀ a, (![0, 0, 0] : Fin 3 → Nat) a + S1x512x321.size a ≤ S1x512x321.size a
  h_S1x512x321 : 0 < S1x512x321.numel
  shapeCasts_S1x512x321_S512x321 : S1x512x321.ShapeCasts S512x321
  reduces_S512x321_S321 : S512x321.Reduces [0] S321
  broadcasts_S1x321_S512x321 : S1x321.Broadcasts S512x321
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x321_S1x321_0_0 : ∀ a, (![0, 0] : Fin 2 → Nat) a + S1x321.size a ≤ S1x321.size a
  h_S1x321 : 0 < S1x321.numel
  shapeCasts_S1x321_S1x321 : S1x321.ShapeCasts S1x321
  broadcasts_S1x321_S128x321 : S1x321.Broadcasts S128x321
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x321 : S128x1.Broadcasts S128x321
  slices_S128x321_o0_0_S96x321 : S128x321.Slices ![0, 0] S96x321
  inb_S1x96x321_S1x96x321_0_0_0 : ∀ a, (![0, 0, 0] : Fin 3 → Nat) a + S1x96x321.size a ≤ S1x96x321.size a
  h_S1x96x321 : 0 < S1x96x321.numel
  shapeCasts_S1x96x321_S96x321 : S1x96x321.ShapeCasts S96x321
  shapeCasts_S96x321_S1x96x321 : S96x321.ShapeCasts S1x96x321
  dot_S128x512_S512x321_S128x321_1_0_0_1_n_n_wf : DotDims.WF S128x512 S512x321 S128x321 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x321.size a ≤ S64x512x321.size a
  hwx0_0 : ∀ i : grid0.Coords, EltTy.bits .f32 = 32 ∨ (Rect.block (s := S64x512x321) S1x512x321.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x321.size a ≤ S1x321.size a
  hwx0_1 : ∀ i : grid0.Coords, EltTy.bits .f32 = 32 ∨ (Rect.block (s := S1x321) S1x321.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x321.size a ≤ S1x321.size a
  hwx0_2 : ∀ i : grid0.Coords, EltTy.bits .f32 = 32 ∨ (Rect.block (s := S1x321) S1x321.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x321.size a ≤ S1x321.size a
  hwx0_3 : ∀ i : grid0.Coords, EltTy.bits .f32 = 32 ∨ (Rect.block (s := S1x321) S1x321.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x96x321.size a ≤ S64x96x321.size a
  hwx0_7 : ∀ i : grid0.Coords, EltTy.bits .f32 = 32 ∨ (Rect.block (s := S64x96x321) S1x96x321.size (cc0_transform_7 i) (hinb0_7 i)).WholeWords (EltTy.packing .f32)

variable [Facts₀]

def dot_S128x512_S512x321_S128x321_1_0_0_1_n_n : DotDims S128x512 S512x321 S128x321 where
  lhsContracting := [1]
  rhsContracting := [0]
  lhsNonContracting := [0]
  rhsNonContracting := [1]
  lhsBatch := []
  rhsBatch := []
  wf := dot_S128x512_S512x321_S128x321_1_0_0_1_n_n_wf

abbrev win0_0 : Pipeline.Window sig grid0 :=
  Pipeline.Window.ofSpec (Memref.whole main_arg0) S1x512x321.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v16) S1x321.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v17) S1x321.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S1x321.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v13) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x96x321.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x321 : Shape := ⟨3, ![64, 512, 321]⟩
abbrev S321 : Shape := ⟨1, ![321]⟩
abbrev S1008x96 : Shape := ⟨2, ![1008, 96]⟩
abbrev S96 : Shape := ⟨1, ![96]⟩
abbrev S64x321x512 : Shape := ⟨3, ![64, 321, 512]⟩
abbrev S20544x512 : Shape := ⟨2, ![20544, 512]⟩
abbrev S_ : Shape := ⟨0, ![]⟩
abbrev S20736x512 : Shape := ⟨2, ![20736, 512]⟩
abbrev S1x321 : Shape := ⟨2, ![1, 321]⟩
abbrev S64x321 : Shape := ⟨2, ![64, 321]⟩
abbrev S20544 : Shape := ⟨1, ![20544]⟩
abbrev S20544x1 : Shape := ⟨2, ![20544, 1]⟩
abbrev S20736x1 : Shape := ⟨2, ![20736, 1]⟩
abbrev S1008x128 : Shape := ⟨2, ![1008, 128]⟩
abbrev S128 : Shape := ⟨1, ![128]⟩
abbrev S1x128 : Shape := ⟨2, ![1, 128]⟩
abbrev S63 : Shape := ⟨1, ![63]⟩
abbrev S63x1 : Shape := ⟨2, ![63, 1]⟩
abbrev S16 : Shape := ⟨1, ![16]⟩
abbrev S1x16 : Shape := ⟨2, ![1, 16]⟩
abbrev S63x16 : Shape := ⟨2, ![63, 16]⟩
abbrev S1008 : Shape := ⟨1, ![1008]⟩
abbrev S512x128 : Shape := ⟨2, ![512, 128]⟩
abbrev S1008x1 : Shape := ⟨2, ![1008, 1]⟩
abbrev S20736x128 : Shape := ⟨2, ![20736, 128]⟩
abbrev S256x512 : Shape := ⟨2, ![256, 512]⟩
abbrev S256x1 : Shape := ⟨2, ![256, 1]⟩
abbrev S256x128 : Shape := ⟨2, ![256, 128]⟩
abbrev S256 : Shape := ⟨1, ![256]⟩
abbrev S20544x96 : Shape := ⟨2, ![20544, 96]⟩
abbrev S64x321x96 : Shape := ⟨3, ![64, 321, 96]⟩
abbrev S64x96x321 : Shape := ⟨3, ![64, 96, 321]⟩

abbrev nBuf : Space → Nat
  | .hbm => 71
  | .vmem => 12
  | .smem => 0
  | _ => 0

abbrev bufTy : (tb : Table) → Fin (tcTables nBuf tb) → BufTy
  | .hbm, ⟨0, _⟩ => ⟨S64x512x321, .f32⟩
  | .hbm, ⟨1, _⟩ => ⟨S321, .f32⟩
  | .hbm, ⟨2, _⟩ => ⟨S321, .f32⟩
  | .hbm, ⟨3, _⟩ => ⟨S1008x96, .f32⟩
  | .hbm, ⟨4, _⟩ => ⟨S96, .f32⟩
  | .hbm, ⟨5, _⟩ => ⟨S64x321x512, .f32⟩
  | .hbm, ⟨6, _⟩ => ⟨S20544x512, .f32⟩
  | .hbm, ⟨7, _⟩ => ⟨S_, .i32⟩
  | .hbm, ⟨8, _⟩ => ⟨S_, .f32⟩
  | .hbm, ⟨9, _⟩ => ⟨S20736x512, .f32⟩
  | .hbm, ⟨10, _⟩ => ⟨S1x321, .f32⟩
  | .hbm, ⟨11, _⟩ => ⟨S64x321, .f32⟩
  | .hbm, ⟨12, _⟩ => ⟨S20544, .f32⟩
  | .hbm, ⟨13, _⟩ => ⟨S20544x1, .f32⟩
  | .hbm, ⟨14, _⟩ => ⟨S1x321, .f32⟩
  | .hbm, ⟨15, _⟩ => ⟨S64x321, .f32⟩
  | .hbm, ⟨16, _⟩ => ⟨S20544, .f32⟩
  | .hbm, ⟨17, _⟩ => ⟨S20544x1, .f32⟩
  | .hbm, ⟨18, _⟩ => ⟨S_, .f32⟩
  | .hbm, ⟨19, _⟩ => ⟨S20544x1, .f32⟩
  | .hbm, ⟨20, _⟩ => ⟨S20544x1, .f32⟩
  | .hbm, ⟨21, _⟩ => ⟨S_, .f32⟩
  | .hbm, ⟨22, _⟩ => ⟨S20544x1, .f32⟩
  | .hbm, ⟨23, _⟩ => ⟨S20544x1, .f32⟩
  | .hbm, ⟨24, _⟩ => ⟨S_, .f32⟩
  | .hbm, ⟨25, _⟩ => ⟨S_, .f32⟩
  | .hbm, ⟨26, _⟩ => ⟨S20736x1, .f32⟩
  | .hbm, ⟨27, _⟩ => ⟨S_, .i32⟩
  | .hbm, ⟨28, _⟩ => ⟨S_, .f32⟩
  | .hbm, ⟨29, _⟩ => ⟨S20736x1, .f32⟩
  | .hbm, ⟨30, _⟩ => ⟨S_, .f32⟩
  | .hbm, ⟨31, _⟩ => ⟨S_, .f32⟩
  | .hbm, ⟨32, _⟩ => ⟨S20736x1, .f32⟩
  | .hbm, ⟨33, _⟩ => ⟨S_, .i32⟩
  | .hbm, ⟨34, _⟩ => ⟨S_, .f32⟩
  | .hbm, ⟨35, _⟩ => ⟨S1008x128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S63, .i32⟩
  | .hbm, ⟨41, _⟩ => ⟨S63x1, .i32⟩
  | .hbm, ⟨42, _⟩ => ⟨S_, .i32⟩
  | .hbm, ⟨43, _⟩ => ⟨S63x1, .i32⟩
  | .hbm, ⟨44, _⟩ => ⟨S63x1, .i32⟩
  | .hbm, ⟨45, _⟩ => ⟨S_, .i32⟩
  | .hbm, ⟨46, _⟩ => ⟨S63x1, .i32⟩
  | .hbm, ⟨47, _⟩ => ⟨S63x1, .i32⟩
  | .hbm, ⟨48, _⟩ => ⟨S16, .i32⟩
  | .hbm, ⟨49, _⟩ => ⟨S1x16, .i32⟩
  | .hbm, ⟨50, _⟩ => ⟨S63x16, .i32⟩
  | .hbm, ⟨51, _⟩ => ⟨S63x16, .i32⟩
  | .hbm, ⟨52, _⟩ => ⟨S63x16, .i32⟩
  | .hbm, ⟨53, _⟩ => ⟨S1008, .i32⟩
  | .hbm, ⟨54, _⟩ => ⟨S_, .f32⟩
  | .hbm, ⟨55, _⟩ => ⟨S512x128, .f32⟩
  | .hbm, ⟨56, _⟩ => ⟨S_, .i32⟩
  | .hbm, ⟨57, _⟩ => ⟨S1008, .i32⟩
  | .hbm, ⟨58, _⟩ => ⟨S1008, .i1⟩
  | .hbm, ⟨59, _⟩ => ⟨S_, .i32⟩
  | .hbm, ⟨60, _⟩ => ⟨S1008, .i32⟩
  | .hbm, ⟨61, _⟩ => ⟨S1008, .i32⟩
  | .hbm, ⟨62, _⟩ => ⟨S1008, .i32⟩
  | .hbm, ⟨63, _⟩ => ⟨S1008x1, .i32⟩
  | .hbm, ⟨64, _⟩ => ⟨S512x128, .f32⟩
  | .hbm, ⟨65, _⟩ => ⟨S20736x128, .f32⟩
  | .hbm, ⟨66, _⟩ => ⟨S20544x96, .f32⟩
  | .hbm, ⟨67, _⟩ => ⟨S64x321x96, .f32⟩
  | .hbm, ⟨68, _⟩ => ⟨S64x96x321, .f32⟩
  | .hbm, ⟨69, _⟩ => ⟨S_, .f32⟩
  | .hbm, ⟨70, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S512x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | _, _ => ⟨S64x512x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_call1_v0 : Ref sig .tc := ⟨.hbm, 25, rfl⟩
abbrev main_v15 : Ref sig .tc := ⟨.hbm, 26, rfl⟩
abbrev main_c_2 : Ref sig .tc := ⟨.hbm, 27, rfl⟩
abbrev main_call2_v0 : Ref sig .tc := ⟨.hbm, 28, rfl⟩
abbrev main_v16 : Ref sig .tc := ⟨.hbm, 29, rfl⟩
abbrev main_cst_3 : Ref sig .tc := ⟨.hbm, 30, rfl⟩
abbrev main_call3_v0 : Ref sig .tc := ⟨.hbm, 31, rfl⟩
abbrev main_v17 : Ref sig .tc := ⟨.hbm, 32, rfl⟩
abbrev main_c_4 : Ref sig .tc := ⟨.hbm, 33, rfl⟩
abbrev main_call4_v0 : Ref sig .tc := ⟨.hbm, 34, rfl⟩
abbrev main_v18 : Ref sig .tc := ⟨.hbm, 35, rfl⟩
abbrev main_c_5 : Ref sig .tc := ⟨.hbm, 36, rfl⟩
abbrev main_call5_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_cst_12 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![81], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S64x512x321_S64x321x512_0_2_1 : S64x512x321.Transposes [0, 2, 1] S64x321x512
  shapeCasts_S64x321x512_S20544x512 : S64x321x512.ShapeCasts S20544x512
  pads_S20544x512_S20736x512_01920_000 : S20544x512.Pads (![0, 0] : Fin 2 → Nat) ![192, 0] ![0, 0] S20736x512
  h_S_ : 0 < S_.numel
  shapeCasts_S321_S1x321 : S321.ShapeCasts S1x321
  bcast_S1x321_S64x321_0_1 : S1x321.BroadcastsInDim S64x321 (![0, 1] : Fin 2 → Fin S64x321.rank)
  shapeCasts_S64x321_S20544 : S64x321.ShapeCasts S20544
  shapeCasts_S20544_S20544x1 : S20544.ShapeCasts S20544x1
  bcast_S_S20544x1 : S_.BroadcastsInDim S20544x1 (![] : Fin 0 → Fin S20544x1.rank)
  pads_S20544x1_S20736x1_01920_000 : S20544x1.Pads (![0, 0] : Fin 2 → Nat) ![192, 0] ![0, 0] S20736x1
  pads_S1008x96_S1008x128_000_0320 : S1008x96.Pads (![0, 0] : Fin 2 → Nat) ![0, 32] ![0, 0] S1008x128
  pads_S96_S128_0320 : S96.Pads (![0] : Fin 1 → Nat) ![32] ![0] S128
  shapeCasts_S128_S1x128 : S128.ShapeCasts S1x128
  bcast_S63_S63x1_0 : S63.BroadcastsInDim S63x1 (![0] : Fin 1 → Fin S63x1.rank)
  bcast_S_S63x1 : S_.BroadcastsInDim S63x1 (![] : Fin 0 → Fin S63x1.rank)
  bcast_S16_S1x16_1 : S16.BroadcastsInDim S1x16 (![1] : Fin 1 → Fin S1x16.rank)
  bcast_S63x1_S63x16_0_1 : S63x1.BroadcastsInDim S63x16 (![0, 1] : Fin 2 → Fin S63x16.rank)
  bcast_S1x16_S63x16_0_1 : S1x16.BroadcastsInDim S63x16 (![0, 1] : Fin 2 → Fin S63x16.rank)
  shapeCasts_S63x16_S1008 : S63x16.ShapeCasts S1008
  bcast_S_S512x128 : S_.BroadcastsInDim S512x128 (![] : Fin 0 → Fin S512x128.rank)
  bcast_S_S1008 : S_.BroadcastsInDim S1008 (![] : Fin 0 → Fin S1008.rank)
  bcast_S1008_S1008x1_0 : S1008.BroadcastsInDim S1008x1 (![0] : Fin 1 → Fin S1008x1.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S256x512_S256 : S256x512.Reduces [1] S256
  shapeCasts_S256_S256x1 : S256.ShapeCasts S256x1
  broadcasts_S256x1_S256x512 : S256x1.Broadcasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  broadcasts_S256x1_S256x128 : S256x1.Broadcasts S256x128
  inb_S256x128_S256x128_0_0 : ∀ a, (![0, 0] : Fin 2 → Nat) a + S256x128.size a ≤ S256x128.size a
  h_S256x128 : 0 < S256x128.numel
  slices_S20736x128_S20544x96_0_0 : S20736x128.Slices ![0, 0] S20544x96
  shapeCasts_S20544x96_S64x321x96 : S20544x96.ShapeCasts S64x321x96
  transposes_S64x321x96_S64x96x321_0_2_1 : S64x321x96.Transposes [0, 2, 1] S64x96x321
  scatter_S512x128_S1008x1_S1008x128_1_0_0_1_wf : ScatterDims.WF S512x128 S1008x1 S1008x128 [1] [0] [0] 1
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S20736x512.size a
  hwx0_0 : ∀ i : grid0.Coords, EltTy.bits .f32 = 32 ∨ (Rect.block (s := S20736x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S20736x1.size a
  hwx0_1 : ∀ i : grid0.Coords, EltTy.bits .f32 = 32 ∨ (Rect.block (s := S20736x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S20736x1.size a
  hwx0_2 : ∀ i : grid0.Coords, EltTy.bits .f32 = 32 ∨ (Rect.block (s := S20736x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S20736x1.size a
  hwx0_3 : ∀ i : grid0.Coords, EltTy.bits .f32 = 32 ∨ (Rect.block (s := S20736x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S20736x128.size a
  hwx0_6 : ∀ i : grid0.Coords, EltTy.bits .f32 = 32 ∨ (Rect.block (s := S20736x128) S256x128.size (cc0_transform_6 i) (hinb0_6 i)).WholeWords (EltTy.packing .f32)

variable [Facts₀]

def scatter_S512x128_S1008x1_S1008x128_1_0_0_1 : ScatterDims S512x128 S1008x1 S1008x128 where
  updateWindowDims := [1]
  insertedWindowDims := [0]
  scatterDimsToOperandDims := [0]
  indexVectorDim := 1
  wf := scatter_S512x128_S1008x1_S1008x128_1_0_0_1_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v41) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.RoseSpec.lean ====
/-
  The mathematics both programs compute, on the extended reals, for one series and one output position.

  A series is a column X of 512 time steps. Its statistics are the mean  μ = (Σ X) / 512,  the variance
  v = (Σ (X - μ)²) / 512,  the inverse deviation  σ⁻¹ = (v + ε)^(-1/2)  and the deviation  σ = (v + ε) · σ⁻¹.
  With the channel's affine weight w and bias b, the folded head weight column W (512 entries: the head row that
  reads each time step, summed), the head bias h and the reciprocal iw of (w + ε²):

    reference:  ((Σ_s ((X s - μ) σ⁻¹ w + b) W s + h) - b) · (iw σ) + μ
    kernel:     ((Σ_s W s X s) (w σ⁻¹) + R (b - (w σ⁻¹) μ) + (h - b)) · (iw σ) + μ      with R = Σ_s W s

  The two agree on finite data by distributing the sum; R is also the column sum of the padded head weight, because
  every head row reads exactly one time step.
-/
import Idealize.ShloMosaic.PureOps.Ideal
import Idealize.ShloMosaic.PureOps.Ideal.Laws
import Idealize.ShloMosaic.Lib.ValueIdx

noncomputable section

namespace Cert.Rose

open Idealize.ShloMosaic Idealize.ShloMosaic.ValueIdx
open scoped BigOperators

/-- 1/512, the reciprocal of the series length (an exact binary fraction). -/
def c512 : EReal := Ideal.ofBits .f32 0x3B000000#32
/-- ε, the variance's regulariser (the binary value nearest 1e-5). -/
def eps : EReal := Ideal.ofBits .f32 0x3727C5AC#32
/-- ε², added to the affine weight before it is inverted (the binary value nearest 1e-10). -/
def eps2 : EReal := Ideal.ofBits .f32 0x2EDBE6FF#32
/-- The numerator 1 of that reciprocal. -/
def one : EReal := Ideal.ofBits .f32 0x3F800000#32

/-- The mean of a series. -/
def mean (X : Fin 512 → EReal) : EReal := (∑ s, X s) * c512
/-- Its (population) variance. -/
def var (X : Fin 512 → EReal) : EReal := (∑ s, (X s - mean X) * (X s - mean X)) * c512
/-- The inverse standard deviation, regularised. -/
def istd (X : Fin 512 → EReal) : EReal := Ideal.rsqrt (var X + eps)
/-- The standard deviation as (v + ε) · (v + ε)^(-1/2). -/
def std (X : Fin 512 → EReal) : EReal := (var X + eps) * istd X
/-- The hoisted reciprocal 1 / (w + ε²). -/
def invw (w : EReal) : EReal := Ideal.div one (w + eps2)

/-- The kernel's value at one output position: the matrix product of the RAW series, corrected afterwards. -/
def kerVal (X : Fin 512 → EReal) (w b iw : EReal) (Wn : Fin 512 → EReal) (rsn hbn : EReal) : EReal :=
  (((∑ s, Wn s * X s) * (w * istd X) + rsn * (b - (w * istd X) * mean X)) + (hbn - b)) * (iw * std X) + mean X

/-- The reference's value there: the matrix product of the NORMALISED series. -/
def refVal (X : Fin 512 → EReal) (w b iw : EReal) (Wn : Fin 512 → EReal) (hbn : EReal) : EReal :=
  (((∑ s, (((X s - mean X) * istd X) * w + b) * Wn s) + hbn) - b) * (iw * std X) + mean X

/-- Finite: a real number. -/
def Fin' (a : EReal) : Prop := ∃ r : ℝ, a = (r : EReal)

/-! ## The folded head weight -/

abbrev SHW : Shape := ⟨2, ![1008, 96]⟩
abbrev SHB : Shape := ⟨1, ![96]⟩
abbrev SX : Shape := ⟨3, ![64, 512, 321]⟩
abbrev SC : Shape := ⟨1, ![321]⟩
abbrev SO : Shape := ⟨3, ![64, 96, 321]⟩

/-- The head weight padded with zero columns from 96 to 128. -/
def hwpad (hw : SHW.Idx → EReal) (p : Fin 1008) (n : Fin 128) : EReal :=
  if h : n.val < 96 then hw (ix2 p ⟨n.val, h⟩) else 0
/-- The head bias padded likewise. -/
def hbpad (hb : SHB.Idx → EReal) (n : Fin 128) : EReal :=
  if h : n.val < 96 then hb (ix1 ⟨n.val, h⟩) else 0
/-- Head row p = 16 i + j (patch i, offset j) reads time step 8 i + j. -/
def tpos (p : Fin 1008) : Fin 512 := ⟨8 * (p.val / 16) + p.val % 16, by omega⟩
/-- The folded weight as the reference builds it: every head row added onto the time step it reads. -/
def weffR (hw : SHW.Idx → EReal) (s : Fin 512) (n : Fin 128) : EReal :=
  ∑ p ∈ Finset.univ.filter (fun p : Fin 1008 => tpos p = s), hwpad hw p n
/-- The folded weight as the kernel's wrapper builds it: time step 8 q + t is read by offset t of patch q (when
    q < 63) and by offset 8 + t of patch q - 1 (when 1 ≤ q). -/
def weffK (hw : SHW.Idx → EReal) (s : Fin 512) (n : Fin 128) : EReal :=
  (if h : s.val / 8 < 63 then hwpad hw ⟨16 * (s.val / 8) + s.val % 8, by omega⟩ n else 0)
    + (if h : 1 ≤ s.val / 8 then hwpad hw ⟨16 * (s.val / 8 - 1) + 8 + s.val % 8, by omega⟩ n else 0)
/-- The column sums of the padded head weight. -/
def rsum (hw : SHW.Idx → EReal) (n : Fin 128) : EReal := ∑ p : Fin 1008, hwpad hw p n

/-! ## The whole results -/

/-- Output position n of 96 among the 128 padded ones. -/
def up (n : Fin 96) : Fin 128 := ⟨n.val, by omega⟩
/-- The reference lays the series out one per row, channel-major: row 321 bb + k of 20736 (the last 192 rows are padding). -/
def row (bb : Fin 64) (k : Fin 321) : Fin 20736 := ⟨321 * bb.val + k.val, by omega⟩
/-- The scalar zero both programs return beside the prediction. -/
def zeroS : (⟨0, ![]⟩ : Shape).Idx → EReal := fun _ => Ideal.ofBits .f32 0x00000000#32
/-- The series of batch entry bb and channel k. -/
def col (x : SX.Idx → EReal) (bb : Fin 64) (k : Fin 321) : Fin 512 → EReal := fun s => x (ix3 bb s k)

/-- The kernel's result at (bb, n, k). -/
def outKat (x : SX.Idx → EReal) (w b : SC.Idx → EReal) (hw : SHW.Idx → EReal) (hb : SHB.Idx → EReal)
    (bb : Fin 64) (n : Fin 96) (k : Fin 321) : EReal :=
  kerVal (col x bb k) (w (ix1 k)) (b (ix1 k)) (invw (w (ix1 k))) (fun s => weffK hw s (up n)) (rsum hw (up n)) (hbpad hb (up n))
/-- The reference's result at (bb, n, k). -/
def outRat (x : SX.Idx → EReal) (w b : SC.Idx → EReal) (hw : SHW.Idx → EReal) (hb : SHB.Idx → EReal)
    (bb : Fin 64) (n : Fin 96) (k : Fin 321) : EReal :=
  refVal (col x bb k) (w (ix1 k)) (b (ix1 k)) (invw (w (ix1 k))) (fun s => weffR hw s (up n)) (hbpad hb (up n))

def outK (x : SX.Idx → EReal) (w b : SC.Idx → EReal) (hw : SHW.Idx → EReal) (hb : SHB.Idx → EReal) : SO.Idx → EReal :=
  fun i => outKat x w b hw hb (i 0) (i 1) (i 2)
def outR (x : SX.Idx → EReal) (w b : SC.Idx → EReal) (hw : SHW.Idx → EReal) (hb : SHB.Idx → EReal) : SO.Idx → EReal :=
  fun i => outRat x w b hw hb (i 0) (i 1) (i 2)

end Cert.Rose

end
-- ==== Proof.RoseAlgebra.lean ====
/-
  The kernel's rearrangement of the reference's value is exact on finite data: distribute the sum over the
  normalised series and collect the weight column's sum.

  On real data every statistic is a real number: the mean and the variance are finite sums of reals times 1/512,
  the variance is a sum of squares and so nonnegative, the regulariser is a positive real, and the inverse root of
  a positive real is the real (√·)⁻¹. Both values are then the inclusion of a real expression, and the two real
  expressions differ by the distributive law only.
-/
import proofs.«155378_g2000605969816161_pallasbulk_1287_4_alg».proof.Proof.RoseSpec

noncomputable section

namespace Cert.Rose

open Idealize.ShloMosaic Idealize.ShloMosaic.ValueIdx
open scoped BigOperators

namespace Algebra

/-! ## The two literals as real numbers -/

/-- The regulariser as a real number: 10995116 · 2⁻⁴⁰. -/
def reps : ℝ := 10995116 / 1099511627776

theorem reps_pos : 0 < reps := by unfold reps; norm_num

/-- The reciprocal of the length denotes the real 1/512. -/
theorem c512_eq : c512 = ((1 / 512 : ℝ) : EReal) := by
  simp [c512, Ideal.ofBits, Ideal.ieee, -EReal.coe_mul] <;> norm_num

/-- The regulariser denotes a positive real. -/
theorem eps_eq : eps = ((reps : ℝ) : EReal) := by
  simp [eps, reps, Ideal.ofBits, Ideal.ieee, -EReal.coe_mul] <;> norm_num

/-! ## Sums of reals inside the extended reals -/

/-- The inclusion of the reals commutes with finite sums. -/
theorem coe_sum {ι : Type*} (t : Finset ι) (f : ι → ℝ) :
    ((∑ s ∈ t, f s : ℝ) : EReal) = ∑ s ∈ t, (f s : EReal) := by
  classical
  induction t using Finset.induction_on with
  | empty => simp
  | insert a t ha ih => rw [Finset.sum_insert ha, Finset.sum_insert ha, EReal.coe_add, ih]

/-! ## The statistics of a finite series are real -/

/-- The mean of a real series. -/
def rmean (x : Fin 512 → ℝ) : ℝ := (∑ s, x s) * (1 / 512)
/-- The variance of a real series. -/
def rvar (x : Fin 512 → ℝ) : ℝ := (∑ s, (x s - rmean x) * (x s - rmean x)) * (1 / 512)
/-- The regularised inverse deviation of a real series. -/
def ristd (x : Fin 512 → ℝ) : ℝ := (Real.sqrt (rvar x + reps))⁻¹

/-- A sum of squares over a positive length. -/
theorem rvar_nonneg (x : Fin 512 → ℝ) : 0 ≤ rvar x := by
  unfold rvar
  exact mul_nonneg (Finset.sum_nonneg (fun s _ => mul_self_nonneg _)) (by norm_num)

theorem mean_coe (x : Fin 512 → ℝ) : mean (fun s => (x s : EReal)) = ((rmean x : ℝ) : EReal) := by
  unfold mean rmean
  rw [c512_eq, ← coe_sum, ← EReal.coe_mul]

theorem var_coe (x : Fin 512 → ℝ) : var (fun s => (x s : EReal)) = ((rvar x : ℝ) : EReal) := by
  unfold var rvar
  rw [mean_coe, c512_eq]
  simp only [← EReal.coe_sub, ← EReal.coe_mul, ← coe_sum]

/-- The variance is nonnegative and the regulariser positive, so the inverse root is taken of a positive real. -/
theorem istd_coe (x : Fin 512 → ℝ) : istd (fun s => (x s : EReal)) = ((ristd x : ℝ) : EReal) := by
  have hpos : 0 < rvar x + reps := add_pos_of_nonneg_of_pos (rvar_nonneg x) reps_pos
  unfold istd ristd
  rw [var_coe, eps_eq, ← EReal.coe_add, Ideal.rsqrt_coe, if_neg (not_lt.mpr hpos.le), if_neg hpos.ne']

/-! ## The identity over the reals -/

/-- Distribute the sum over the normalised series and collect the weight column's sum:
    Σ ((x - m) i w + b) W = (Σ W x) (w i) + (Σ W) (b - w i m). -/
theorem real_sum_eq (x W : Fin 512 → ℝ) (w b i m : ℝ) :
    ∑ s, ((x s - m) * i * w + b) * W s
      = (∑ s, W s * x s) * (w * i) + (∑ s, W s) * (b - w * i * m) := by
  rw [Finset.sum_mul, Finset.sum_mul, ← Finset.sum_add_distrib]
  exact Finset.sum_congr rfl (fun s _ => by ring)

/-- The two values before the common denormalisation agree on real data: both sides are inclusions of real
    expressions, equal by the identity above. -/
theorem T_eq (x W : Fin 512 → ℝ) (w b h : ℝ) :
    ((∑ s, (W s : EReal) * (x s : EReal)) * ((w : EReal) * istd (fun s => (x s : EReal)))
        + (∑ s, (W s : EReal)) * ((b : EReal) - ((w : EReal) * istd (fun s => (x s : EReal))) * mean (fun s => (x s : EReal))))
        + ((h : EReal) - (b : EReal))
      = ((∑ s, ((((x s : EReal) - mean (fun s => (x s : EReal))) * istd (fun s => (x s : EReal))) * (w : EReal) + (b : EReal)) * (W s : EReal))
          + (h : EReal)) - (b : EReal) := by
  rw [istd_coe, mean_coe]
  simp only [← EReal.coe_sub, ← EReal.coe_mul, ← EReal.coe_add, ← coe_sum]
  rw [EReal.coe_eq_coe_iff, real_sum_eq]
  ring

end Algebra

/-- On finite data, and with R the sum of the weight column, the two values are equal. -/
theorem ker_eq_ref (X : Fin 512 → EReal) (w b iw : EReal) (Wn : Fin 512 → EReal) (rsn hbn : EReal)
    (hX : ∀ s, Fin' (X s)) (hw : Fin' w) (hb : Fin' b) (hW : ∀ s, Fin' (Wn s)) (hh : Fin' hbn)
    (hrs : rsn = ∑ s, Wn s) :
    kerVal X w b iw Wn rsn hbn = refVal X w b iw Wn hbn := by
  obtain ⟨w', rfl⟩ := hw
  obtain ⟨b', rfl⟩ := hb
  obtain ⟨h', rfl⟩ := hh
  have hX' : ∀ s, ∃ r : ℝ, X s = (r : EReal) := hX
  have hW' : ∀ s, ∃ r : ℝ, Wn s = (r : EReal) := hW
  choose x hx using hX'
  choose W hWx using hW'
  obtain rfl : X = fun s => (x s : EReal) := funext hx
  obtain rfl : Wn = fun s => (W s : EReal) := funext hWx
  subst hrs
  unfold kerVal refVal
  exact congrArg (fun T => T * (iw * std (fun s => (x s : EReal))) + mean (fun s => (x s : EReal)))
    (Algebra.T_eq x W w' b' h')

end Cert.Rose

end
-- ==== Proof.RoseFold.lean ====
/-
  The folded head weight: two constructions of it agree, its column sums are the head weight's, and it is finite
  when the head weight is.
-/
import proofs.«155378_g2000605969816161_pallasbulk_1287_4_alg».proof.Proof.RoseSpec
import Mathlib.Algebra.BigOperators.Group.Finset.Basic
import Mathlib.Data.EReal.Basic

noncomputable section

namespace Cert.Rose

open Idealize.ShloMosaic Idealize.ShloMosaic.ValueIdx
open scoped BigOperators

/-! ## Which head rows read a given time step

  Write a head row as p = 16 i + j (i < 63, j < 16) and a time step as s = 8 q + t (t < 8). Row p reads step
  8 i + j. If j < 8 this is step s exactly when i = q and j = t; if j ≥ 8, write j = 8 + j' and the step is
  8 (i + 1) + j', which is s exactly when i = q - 1 and j' = t. So at most two rows read step s. -/

/-- Row p reads time step s exactly when p is one of the (at most) two rows named above. -/
private theorem tpos_eq_iff (p : Fin 1008) (s : Fin 512) :
    tpos p = s ↔
      (p.val = 16 * (s.val / 8) + s.val % 8 ∧ s.val / 8 < 63)
        ∨ (p.val = 16 * (s.val / 8 - 1) + 8 + s.val % 8 ∧ 1 ≤ s.val / 8) := by
  have hp := p.isLt
  have hs := s.isLt
  simp only [tpos, Fin.ext_iff]
  omega

/-- The two constructions of the folded weight agree. -/
theorem weffK_eq_weffR (hw : SHW.Idx → EReal) (s : Fin 512) (n : Fin 128) : weffK hw s n = weffR hw s n := by
  have hs := s.isLt
  unfold weffK weffR
  by_cases h1 : s.val / 8 < 63
  · by_cases h2 : 1 ≤ s.val / 8
    · -- an interior patch boundary: both rows exist and they differ
      rw [dif_pos h1, dif_pos h2]
      have hset : Finset.univ.filter (fun p : Fin 1008 => tpos p = s)
          = {(⟨16 * (s.val / 8) + s.val % 8, by omega⟩ : Fin 1008),
             (⟨16 * (s.val / 8 - 1) + 8 + s.val % 8, by omega⟩ : Fin 1008)} := by
        ext p
        rw [Finset.mem_filter, tpos_eq_iff]
        simp only [Finset.mem_univ, true_and, Finset.mem_insert, Finset.mem_singleton, Fin.ext_iff]
        omega
      rw [hset, Finset.sum_pair]
      intro hne
      have := congrArg Fin.val hne
      simp only at this
      omega
    · -- the first patch: only the row of the patch itself
      rw [dif_pos h1, dif_neg h2, add_zero]
      have hset : Finset.univ.filter (fun p : Fin 1008 => tpos p = s)
          = {(⟨16 * (s.val / 8) + s.val % 8, by omega⟩ : Fin 1008)} := by
        ext p
        rw [Finset.mem_filter, tpos_eq_iff]
        simp only [Finset.mem_univ, true_and, Finset.mem_singleton, Fin.ext_iff]
        omega
      rw [hset, Finset.sum_singleton]
  · -- past the last patch's first half: only the row of the patch before
    have h2 : 1 ≤ s.val / 8 := by omega
    rw [dif_neg h1, dif_pos h2, zero_add]
    have hset : Finset.univ.filter (fun p : Fin 1008 => tpos p = s)
        = {(⟨16 * (s.val / 8 - 1) + 8 + s.val % 8, by omega⟩ : Fin 1008)} := by
      ext p
      rw [Finset.mem_filter, tpos_eq_iff]
      simp only [Finset.mem_univ, true_and, Finset.mem_singleton, Fin.ext_iff]
      omega
    rw [hset, Finset.sum_singleton]

/-- The column sum of the padded head weight is the column sum of the folded weight: every head row reads exactly
    one time step, so summing over the time steps the sums over the rows that read each is summing over all rows. -/
theorem rsum_eq_sum_weffR (hw : SHW.Idx → EReal) (n : Fin 128) : rsum hw n = ∑ s : Fin 512, weffR hw s n := by
  unfold rsum weffR
  exact (Finset.sum_fiberwise Finset.univ tpos (fun p => hwpad hw p n)).symm

/-! ## Finiteness -/

private theorem fin_zero : Fin' (0 : EReal) := ⟨0, EReal.coe_zero.symm⟩

private theorem fin_add {a b : EReal} (ha : Fin' a) (hb : Fin' b) : Fin' (a + b) := by
  obtain ⟨x, rfl⟩ := ha
  obtain ⟨y, rfl⟩ := hb
  exact ⟨x + y, (EReal.coe_add x y).symm⟩

/-- A finite sum of real numbers is a real number. -/
private theorem fin_sum {ι : Type} (S : Finset ι) (f : ι → EReal) (h : ∀ i ∈ S, Fin' (f i)) :
    Fin' (∑ i ∈ S, f i) := by
  classical
  induction S using Finset.induction_on with
  | empty => rw [Finset.sum_empty]; exact fin_zero
  | insert a T ha ih =>
    rw [Finset.sum_insert ha]
    exact fin_add (h a (Finset.mem_insert_self a T)) (ih (fun i hi => h i (Finset.mem_insert_of_mem hi)))

/-- An entry of the padded head weight is a head weight entry or zero. -/
private theorem hwpad_fin (hw : SHW.Idx → EReal) (h : ∀ i, Fin' (hw i)) (p : Fin 1008) (n : Fin 128) :
    Fin' (hwpad hw p n) := by
  unfold hwpad
  split_ifs with hn
  · exact h _
  · exact fin_zero

/-- A folded weight of finite head weights is finite. -/
theorem weffR_fin (hw : SHW.Idx → EReal) (h : ∀ i, Fin' (hw i)) (s : Fin 512) (n : Fin 128) : Fin' (weffR hw s n) := by
  unfold weffR
  exact fin_sum _ _ (fun p _ => hwpad_fin hw h p n)

/-- A padded head bias of finite entries is finite. -/
theorem hbpad_fin (hb : SHB.Idx → EReal) (h : ∀ i, Fin' (hb i)) (n : Fin 128) : Fin' (hbpad hb n) := by
  unfold hbpad
  split_ifs with hn
  · exact h _
  · exact fin_zero

end Cert.Rose

end
-- ==== Proof.RoseMain.lean ====
/-
  On finite inputs the kernel's whole result is the reference's: position by position, the rearrangement lemma at
  the folded weight's column.
-/
import proofs.«155378_g2000605969816161_pallasbulk_1287_4_alg».proof.Proof.RoseSpec
import proofs.«155378_g2000605969816161_pallasbulk_1287_4_alg».proof.Proof.RoseAlgebra
import proofs.«155378_g2000605969816161_pallasbulk_1287_4_alg».proof.Proof.RoseFold

noncomputable section

namespace Cert.Rose

open Idealize.ShloMosaic Idealize.ShloMosaic.ValueIdx
open scoped BigOperators

/-- On finite inputs the kernel's result is the reference's. -/
theorem outK_eq_outR (x : SX.Idx → EReal) (w b : SC.Idx → EReal) (hw : SHW.Idx → EReal) (hb : SHB.Idx → EReal)
    (hx : ∀ i, Fin' (x i)) (hw' : ∀ i, Fin' (w i)) (hb' : ∀ i, Fin' (b i)) (hhw : ∀ i, Fin' (hw i)) (hhb : ∀ i, Fin' (hb i)) :
    outK x w b hw hb = outR x w b hw hb := by
  funext i
  unfold outK outR outKat outRat
  have e : (fun s => weffK hw s (up (i 1))) = fun s => weffR hw s (up (i 1)) := funext fun s => weffK_eq_weffR hw s _
  rw [e]
  exact ker_eq_ref _ _ _ _ _ _ _ (fun s => hx _) (hw' _) (hb' _) (fun s => weffR_fin hw hhw s _) (hbpad_fin hb hhb _)
    (rsum_eq_sum_weffR hw _)

end Cert.Rose

end
-- ==== Proof.RoseFinite.lean ====
/-
  The precondition read as mathematics: the five inputs' entries are real numbers. The printed predicate is the
  conjunction, over the five arrays, of "every entry's absolute value is below +∞"; on the extended reals that holds
  of the reals only.
-/
import proofs.«155378_g2000605969816161_pallasbulk_1287_4_alg».proof.Pre_finite_inputs
import proofs.«155378_g2000605969816161_pallasbulk_1287_4_alg».proof.Proof.Gen.Pre_finite_inputs
import proofs.«155378_g2000605969816161_pallasbulk_1287_4_alg».proof.Proof.RoseSpec
import Idealize.ShloMosaic.Lib.ReduceAll
import Idealize.ShloMosaic.Lib.Affine
import Idealize.ShloMosaic.PureOps.Ideal.Laws

noncomputable section

namespace Cert.Rose

open Idealize.ShloMosaic Idealize.ShloMosaic.ValueIdx

/-- The word 0x7F800000 denotes +∞. -/
theorem top_word : Ideal.ofBits .f32 0x7F800000#32 = ⊤ := by simp [Ideal.ofBits, Ideal.ieee]

/-- An extended real whose absolute value compares below +∞ is a real number. -/
theorem fin_of_cmp (x : EReal)
    (h : FloatOps.cmpf (F := Ideal) (φ := .f32) .olt (FloatOps.hostAbsf (F := Ideal) (φ := .f32) x)
      (Ideal.ofBits .f32 0x7F800000#32) = 1#1) : Fin' x := by
  rw [top_word] at h
  change Ideal.cmp .olt (max x (-x)) ⊤ = 1#1 at h
  induction x using EReal.rec with
  | bot => simp [Ideal.cmp] at h
  | top => simp [Ideal.cmp] at h
  | coe r => exact ⟨r, rfl⟩

instance : Subsingleton (Cert.Pre_finite_inputs.S_).Idx := ⟨fun a b => funext fun d => d.elim0⟩

open Cert.Pre_finite_inputs in
/-- The printed precondition gives finiteness of every entry of every input. -/
theorem finite_of_pre (a0 : FVec Ideal S64x512x321 .f32) (a1 a2 : FVec Ideal S321 .f32) (a3 : FVec Ideal S1008x96 .f32)
    (a4 : FVec Ideal S96 .f32)
    (h : Cert.Pre_finite_inputs.fn (F := Ideal) a0 a1 a2 a3 a4 = fun _ => 1#1) :
    (∀ i, Fin' (a0 i)) ∧ (∀ i, Fin' (a1 i)) ∧ (∀ i, Fin' (a2 i)) ∧ (∀ i, Fin' (a3 i)) ∧ (∀ i, Fin' (a4 i)) := by
  have h0 := congrFun h ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => fin_of_cmp _ ?_, fun i => fin_of_cmp _ ?_, fun i => fin_of_cmp _ ?_, fun i => fin_of_cmp _ ?_,
    fun i => fin_of_cmp _ ?_⟩
  · exact Host.reduce_andi_all _ _ _ _ _ h0' i
  · exact Host.reduce_andi_all _ _ _ _ _ h1 i
  · exact Host.reduce_andi_all _ _ _ _ _ h2 i
  · exact Host.reduce_andi_all _ _ _ _ _ h3 i
  · exact Host.reduce_andi_all _ _ _ _ _ h4 i

end Cert.Rose

end
-- ==== Proof.KArgs.lean ====
/-
  The kernel program's five argument arrays on a core, as functions of their indices.
-/
import proofs.«155378_g2000605969816161_pallasbulk_1287_4_alg».proof.Proof.Gen.KernelIdeal
import proofs.«155378_g2000605969816161_pallasbulk_1287_4_alg».proof.Proof.RoseSpec

noncomputable section

namespace Cert.KernelIdeal.RoseK

open Idealize.ShloMosaic Idealize.ShloMosaic.TcCoe Idealize.ShloMosaic.ValueIdx Idealize.SL.Sem
open Cert.KernelIdeal
open scoped BigOperators

variable (m : (ℓ : Loc nD τ sig) → Buf (Elt Ideal) ℓ) (c : Dev nD)

/-- The input series, [64, 512, 321]. -/
abbrev aX : Cert.Rose.SX.Idx → EReal := m ((c.tc : Thread nD τ).loc main_arg0)
/-- The affine weight, [321]. -/
abbrev aW : Cert.Rose.SC.Idx → EReal := m ((c.tc : Thread nD τ).loc main_arg1)
/-- The affine bias, [321]. -/
abbrev aB : Cert.Rose.SC.Idx → EReal := m ((c.tc : Thread nD τ).loc main_arg2)
/-- The head weight, [1008, 96]. -/
abbrev aHW : Cert.Rose.SHW.Idx → EReal := m ((c.tc : Thread nD τ).loc main_arg3)
/-- The head bias, [96]. -/
abbrev aHB : Cert.Rose.SHB.Idx → EReal := m ((c.tc : Thread nD τ).loc main_arg4)

end Cert.KernelIdeal.RoseK

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.KPayload.lean ====
/-
  The kernel body's stored value at an output position (n, k) of its block: the value `kerVal` of the block's
  series k, the channel's parameters, row n of the folded weight, and the n-th column sum and head bias.

  The body is a short chain of pointwise operations, two sums down the 512 time steps (the mean and the variance of
  each of the 321 series), one matrix product [128, 512] · [512, 321], and layout changes that only rename indices
  (unit axes added or dropped, a row or a column repeated, the first 96 of 128 rows kept). Each named intermediate
  value is read at one index; the right-hand sides are written in the same order of operations as the body, so the
  last step composes them.
-/
import proofs.«155378_g2000605969816161_pallasbulk_1287_4_alg».proof.Proof.Gen.KernelIdeal.Skeleton
import proofs.«155378_g2000605969816161_pallasbulk_1287_4_alg».proof.Proof.RoseSpec
import proofs.«155378_g2000605969816161_pallasbulk_1287_4_alg».proof.Proof.LibPlainDot
import Idealize.ShloMosaic.Lib.Pipeline.Value
import Idealize.ShloMosaic.Lib.ValueLayout
import Idealize.ShloMosaic.PureOps.Ideal.Laws

noncomputable section

namespace Cert.KernelIdeal.RoseK

open Idealize.ShloMosaic Idealize.ShloMosaic.TcCoe Idealize.ShloMosaic.ValueIdx Idealize.SL.Sem
open Cert.KernelIdeal Cert.KernelIdeal.Gen
open scoped BigOperators

/-! ## Equal operands give equal results -/

private theorem add_congr {a a' b b' : EReal} (h1 : a = a') (h2 : b = b') : a + b = a' + b' := by rw [h1, h2]
private theorem sub_congr {a a' b b' : EReal} (h1 : a = a') (h2 : b = b') : a - b = a' - b' := by rw [h1, h2]
private theorem mul_congr {a a' b b' : EReal} (h1 : a = a') (h2 : b = b') : a * b = a' * b' := by rw [h1, h2]

/-! ## Reads at an index that the library does not spell out -/

/-- A pointwise inverse square root read at an index is the inverse square root of the element. -/
theorem rsqrt_apply {s : Shape} {φ : FTy} (a : FVec Ideal s φ) (i : s.Idx) : rsqrt a i = Ideal.rsqrt (a i) := rfl

/-- An `[a, 1]` column repeated across `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum down the rows of a [512, 321] array: the summed row `s` put in front of the column `k`. -/
theorem lift_col (h : S512x321.Reduces [0] S321) (k : Fin 321) (s : Fin 512) : h.lift (ix1 k) s = ix2 s k :=
  funext fun c => Fin.ext (by
    match c with
    | ⟨0, _⟩ => rfl
    | ⟨1, _⟩ => rfl)

/-- A sum down the 512 rows of a [512, 321] array, read at column `k`, is the sum of that column's 512 entries. -/
theorem colsum_apply (v : FVec Ideal S512x321 .f32) (h : S512x321.Reduces [0] S321) (hφ : FKind.Formats .f32)
    (hacc : (0x00000000#32 : BitVec 32) = 0x00000000#32) (k : Fin 321) :
    multiReduction (F := Ideal) .add [0] S321 v 0x00000000#32 h hφ hacc (ix1 k) = ∑ s : Fin 512, v (ix2 s k) := by
  refine (Ideal.multiReduction_add_single v 0x00000000#32 h hφ hacc (ix1 k)).trans ?_
  show ∑ s : Fin 512, v (h.lift (ix1 k) s) = _
  exact Finset.sum_congr rfl fun s _ => congrArg v (lift_col h k s)

/-- The product's dimension numbers are those of a plain row-by-column product. -/
theorem isPlain_dot : PlainDot.IsPlain (R := 128) (K := 512) (C := 321) dot_S128x512_S512x321_S128x321_1_0_0_1_n_n :=
  ⟨rfl, rfl, rfl, rfl, rfl, rfl⟩

/-! ## The intermediate values, each at one index

`X` below is the series `k` of the block: `X s = v0 (0, s, k)`. -/

/-- The block without its leading unit axis. -/
theorem pay2_apply (v0 : FVec Ideal S1x512x321 .f32) (s : Fin 512) (k : Fin 321) :
    k0_pay2 (F := Ideal) v0 (ix2 s k) = v0 (ix3 (0 : Fin 1) s k) := by
  unfold k0_pay2
  exact shapeCast_1ab_ab_apply v0 _ s k

/-- The mean of series `k`: the column's sum times 1/512. -/
theorem pay3_apply (v0 : FVec Ideal S1x512x321 .f32) (k : Fin 321) :
    k0_pay3 (F := Ideal) v0 (ix2 (0 : Fin 1) k) = Cert.Rose.mean (fun s => v0 (ix3 (0 : Fin 1) s k)) := by
  unfold k0_pay3 Cert.Rose.mean
  refine (mulf_apply _ _ _).trans (mul_congr ?_ rfl)
  refine (shapeCast_a_1a_apply _ _ (0 : Fin 1) k).trans ?_
  refine (colsum_apply _ _ _ _ k).trans ?_
  exact Finset.sum_congr rfl fun s _ => pay2_apply v0 s k

/-- The variance of series `k`: the sum of the squared deviations from the mean, times 1/512. -/
theorem pay4_apply (v0 : FVec Ideal S1x512x321 .f32) (k : Fin 321) :
    k0_pay4 (F := Ideal) v0 (ix2 (0 : Fin 1) k) = Cert.Rose.var (fun s => v0 (ix3 (0 : Fin 1) s k)) := by
  unfold k0_pay4 Cert.Rose.var
  refine (mulf_apply _ _ _).trans (mul_congr ?_ rfl)
  refine (shapeCast_a_1a_apply _ _ (0 : Fin 1) k).trans ?_
  refine (colsum_apply _ _ _ _ k).trans ?_
  refine Finset.sum_congr rfl fun s _ => ?_
  refine (mulf_apply _ _ _).trans (mul_congr ?_ ?_) <;>
    exact (subf_apply _ _ _).trans (sub_congr (pay2_apply v0 s k)
      ((broadcastTo_1b_ab_apply _ _ s k).trans (pay3_apply v0 k)))

/-- The inverse deviation of series `k`. -/
theorem pay5_apply (v0 : FVec Ideal S1x512x321 .f32) (k : Fin 321) :
    k0_pay5 (F := Ideal) v0 (ix2 (0 : Fin 1) k) = Cert.Rose.istd (fun s => v0 (ix3 (0 : Fin 1) s k)) := by
  unfold k0_pay5 Cert.Rose.istd
  refine (rsqrt_apply _ _).trans (congrArg Ideal.rsqrt ?_)
  exact (addf_apply _ _ _).trans (add_congr (pay4_apply v0 k) rfl)

/-- The channel's weight times the inverse deviation. -/
theorem pay6_apply (v0 : FVec Ideal S1x512x321 .f32) (vw : FVec Ideal S1x321 .f32) (k : Fin 321) :
    k0_pay6 (F := Ideal) v0 vw (ix2 (0 : Fin 1) k)
      = vw (ix2 (0 : Fin 1) k) * Cert.Rose.istd (fun s => v0 (ix3 (0 : Fin 1) s k)) := by
  unfold k0_pay6
  exact (mulf_apply _ _ _).trans (mul_congr (congrFun (shapeCast_self vw _) _) (pay5_apply v0 k))

/-- The weight's reciprocal times the deviation. -/
theorem pay7_apply (v0 : FVec Ideal S1x512x321 .f32) (viw : FVec Ideal S1x321 .f32) (k : Fin 321) :
    k0_pay7 (F := Ideal) v0 viw (ix2 (0 : Fin 1) k)
      = viw (ix2 (0 : Fin 1) k) * Cert.Rose.std (fun s => v0 (ix3 (0 : Fin 1) s k)) := by
  unfold k0_pay7 Cert.Rose.std
  refine (mulf_apply _ _ _).trans (mul_congr (congrFun (shapeCast_self viw _) _) ?_)
  refine (mulf_apply _ _ _).trans (mul_congr ?_ (pay5_apply v0 k))
  exact (addf_apply _ _ _).trans (add_congr (pay4_apply v0 k) rfl)

/-- Row `p` of the folded weight times the raw series, scaled by the weight times the inverse deviation. -/
theorem pay8_apply (v0 : FVec Ideal S1x512x321 .f32) (v19 : FVec Ideal S128x512 .f32) (vw : FVec Ideal S1x321 .f32)
    (p : Fin 128) (k : Fin 321) :
    k0_pay8 (F := Ideal) v0 v19 vw (ix2 p k)
      = (∑ s : Fin 512, v19 (ix2 p s) * v0 (ix3 (0 : Fin 1) s k))
          * (vw (ix2 (0 : Fin 1) k) * Cert.Rose.istd (fun s => v0 (ix3 (0 : Fin 1) s k))) := by
  unfold k0_pay8
  refine (mulf_apply _ _ _).trans (mul_congr ?_ ?_)
  · refine (PlainDot.matmul_zero_apply isPlain_dot none _ _ p k).trans ?_
    exact Finset.sum_congr rfl fun s _ => mul_congr (congrFun (shapeCast_self v19 _) _) (pay2_apply v0 s k)
  · exact (broadcastTo_1b_ab_apply _ _ p k).trans (pay6_apply v0 vw k)

/-- The `p`-th column sum times the bias less the scaled mean. -/
theorem pay9_apply (v0 : FVec Ideal S1x512x321 .f32) (vw : FVec Ideal S1x321 .f32) (v30 : FVec Ideal S128x1 .f32)
    (vb : FVec Ideal S1x321 .f32) (p : Fin 128) (k : Fin 321) :
    k0_pay9 (F := Ideal) v0 vw v30 vb (ix2 p k)
      = v30 (ix2 p (0 : Fin 1))
          * (vb (ix2 (0 : Fin 1) k)
              - (vw (ix2 (0 : Fin 1) k) * Cert.Rose.istd (fun s => v0 (ix3 (0 : Fin 1) s k)))
                  * Cert.Rose.mean (fun s => v0 (ix3 (0 : Fin 1) s k))) := by
  unfold k0_pay9
  refine (mulf_apply _ _ _).trans (mul_congr ?_ ?_)
  · exact (broadcastTo_a1_ab_apply _ _ p k).trans (congrFun (shapeCast_self v30 _) _)
  · refine (broadcastTo_1b_ab_apply _ _ p k).trans ?_
    refine (subf_apply _ _ _).trans (sub_congr (congrFun (shapeCast_self vb _) _) ?_)
    exact (mulf_apply _ _ _).trans (mul_congr (pay6_apply v0 vw k) (pay3_apply v0 k))

/-! ## The stored value -/

/-- The body's one stored value, read at (0, n, k). The loads: v0 the series block, v19 the folded weight (transposed:
    [128, 512]), vw the affine weight, vb the bias (loaded twice by the body), viw the reciprocal, v30 the column sums,
    v40 the head bias. -/
theorem pay_apply (v0 : Vec Ideal S1x512x321 .f32) (v19 : Vec Ideal S128x512 .f32) (vw vb viw : Vec Ideal S1x321 .f32)
    (v30 v40 : Vec Ideal S128x1 .f32) (n : Fin 96) (k : Fin 321) :
    k0_pay1 (F := Ideal) (k0_pay3 v0) (k0_pay7 v0 viw) (k0_pay8 v0 v19 vw) (k0_pay9 v0 vw v30 vb) v40 vb (ix3 (0 : Fin 1) n k)
      = Cert.Rose.kerVal (fun s => v0 (ix3 (0 : Fin 1) s k)) (vw (ix2 (0 : Fin 1) k)) (vb (ix2 (0 : Fin 1) k)) (viw (ix2 (0 : Fin 1) k))
          (fun s => v19 (ix2 (Cert.Rose.up n) s)) (v30 (ix2 (Cert.Rose.up n) (0 : Fin 1))) (v40 (ix2 (Cert.Rose.up n) (0 : Fin 1))) := by
  unfold k0_pay1 Cert.Rose.kerVal
  refine (shapeCast_ab_1ab_apply _ _ (0 : Fin 1) n k).trans ?_
  refine (slice2_axis0_apply 0 _ _ n k (Cert.Rose.up n) (Nat.zero_add _).symm).trans ?_
  refine (addf_apply _ _ _).trans (add_congr ?_ ?_)
  · refine (mulf_apply _ _ _).trans (mul_congr ?_ ?_)
    · refine (addf_apply _ _ _).trans (add_congr ?_ ?_)
      · exact (addf_apply _ _ _).trans (add_congr (pay8_apply v0 v19 vw (Cert.Rose.up n) k)
          (pay9_apply v0 vw v30 vb (Cert.Rose.up n) k))
      · refine (subf_apply _ _ _).trans (sub_congr ?_ ?_)
        · exact (broadcastTo_a1_ab_apply _ _ (Cert.Rose.up n) k).trans (congrFun (shapeCast_self v40 _) _)
        · exact (broadcastTo_1b_ab_apply _ _ (Cert.Rose.up n) k).trans (congrFun (shapeCast_self vb _) _)
    · exact (broadcastTo_1b_ab_apply _ _ (Cert.Rose.up n) k).trans (pay7_apply v0 viw k)
  · exact (broadcastTo_1b_ab_apply _ _ (Cert.Rose.up n) k).trans (pay3_apply v0 k)

end Cert.KernelIdeal.RoseK

end
-- ==== Proof.KHost.lean ====
/-
  What the kernel's wrapper hands the call, entry by entry: the folded weight (two shifted slabs of the padded head
  weight, transposed), the padded head weight's column sums, the padded head bias, the affine weight and bias as rows,
  and the reciprocal of (weight + ε²).

  Each entry is first written as the composition of the wrapper's operations applied to the argument arrays, and that
  composition is then read at an index one operation at a time: a padding reads its operand inside the copied block
  and zero outside, a reshape reads the operand at the same row-major position, a slice shifts a coordinate, a
  transpose swaps two, a sum over rows is a finite sum.
-/
import proofs.«155378_g2000605969816161_pallasbulk_1287_4_alg».proof.Proof.Gen.KernelIdeal.Frame
import proofs.«155378_g2000605969816161_pallasbulk_1287_4_alg».proof.Proof.KArgs
import Idealize.ShloMosaic.Lib.Pipeline.Value
import Idealize.ShloMosaic.Lib.ValueLayout
import Idealize.ShloMosaic.Lib.StableHlo.Run
import Idealize.ShloMosaic.PureOps.Ideal.Laws

noncomputable section

namespace Cert.KernelIdeal.RoseK

open Idealize.ShloMosaic Idealize.ShloMosaic.TcCoe Idealize.ShloMosaic.ValueIdx Idealize.SL.Sem
open Cert.KernelIdeal Cert.KernelIdeal.Gen
open scoped BigOperators

/-! ## A padded array read at an index -/

namespace Wrap

section PadRead
variable {α : Type} {s t u : Shape}

/-- Inside the copied block a padded array is its operand: the result coordinate lo + k · (interior + 1) on every
    axis reads the operand's coordinate k. -/
theorem pad_inside (lo hi interior : Fin s.rank → Nat) (x : s.Idx → α) (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := by
    intro a
    rw [hk a, Nat.add_sub_cancel_left, Nat.mul_mod_left, Nat.mul_div_cancel _ (Nat.succ_pos _)]
    exact ⟨Nat.le_add_right _ _, rfl, (k a).isLt⟩
  unfold pad
  rw [dif_pos hin]
  refine congrArg x (funext fun a => Fin.ext ?_)
  show ((j (a.cast h.1)).val - lo a) / (interior a + 1) = (k a).val
  rw [hk a, Nat.add_sub_cancel_left, Nat.mul_div_cancel _ (Nat.succ_pos _)]

/-- Before the copied block, or past its end, on some axis, a padded array is the padding value. -/
theorem pad_outside (lo hi interior : Fin s.rank → Nat) (x : s.Idx → α) (v : u.Idx → α)
    (h : s.Pads lo hi interior t) (hu : 0 < u.numel) (j : t.Idx) (a : Fin s.rank)
    (hout : (j (a.cast h.1)).val < lo a ∨ s.size a ≤ ((j (a.cast h.1)).val - lo a) / (interior a + 1)) :
    pad t lo hi interior x v h hu j = v (Shape.Idx.first hu) := by
  unfold pad
  rw [dif_neg]
  intro hin
  rcases hout with hlt | hge
  · exact absurd (hin a).1 (Nat.not_le.2 hlt)
  · exact absurd (hin a).2.2 (Nat.not_lt.2 hge)

end PadRead

/-- The padding value: the integer 0 converted to a float. -/
def zpad : FVec Ideal S_ .f32 := sitofp .f32 (constantI S_ 32 0#32)

theorem zpad_apply (i : S_.Idx) : zpad i = 0 := by
  show (((0#32 : BitVec 32).toInt : ℝ) : EReal) = 0
  rw [BitVec.toInt_zero, Int.cast_zero, EReal.coe_zero]

/-! ## The folded weight, stage by stage

The head weight has a row for every (patch i, offset within the patch) pair, 16 i + 8 h + t with h the half of
the patch and t the offset within the half. The first halves, shifted by no patch, and the second halves, shifted by
one patch, are added: time step 8 q + t then holds row 16 q + t (when q < 63) plus row 16 (q - 1) + 8 + t (when 1 ≤ q). -/

section Weight
variable (hw : FVec Ideal S1008x96 .f32)

/-- The head weight with 32 zero columns appended. -/
def stP : FVec Ideal S1008x128 .f32 :=
  pad S1008x128 ![0, 0] ![0, 32] ![0, 0] hw zpad pads_S1008x96_S1008x128_000_0320 h_S_
/-- Its rows grouped as (patch, half, offset). -/
def stR : FVec Ideal S63x2x8x128 .f32 := shapeCast S63x2x8x128 (stP hw) shapeCasts_S1008x128_S63x2x8x128
/-- The first halves. -/
def stA2 : FVec Ideal S63x1x8x128 .f32 :=
  extractStridedSlice S63x1x8x128 ![0, 0, 0, 0] (stR hw) slices_S63x2x8x128_S63x1x8x128_0_0_0_0
def stA3 : FVec Ideal S63x8x128 .f32 := shapeCast S63x8x128 (stA2 hw) shapeCasts_S63x1x8x128_S63x8x128
/-- The first halves with a zero patch after them. -/
def stA4 : FVec Ideal S64x8x128 .f32 :=
  pad S64x8x128 ![0, 0, 0] ![1, 0, 0] ![0, 0, 0] (stA3 hw) zpad pads_S63x8x128_S64x8x128_010_000_000 h_S_
/-- The second halves. -/
def stB5 : FVec Ideal S63x1x8x128 .f32 :=
  extractStridedSlice S63x1x8x128 ![0, 1, 0, 0] (stR hw) slices_S63x2x8x128_S63x1x8x128_0_1_0_0
def stB6 : FVec Ideal S63x8x128 .f32 := shapeCast S63x8x128 (stB5 hw) shapeCasts_S63x1x8x128_S63x8x128
/-- The second halves with a zero patch before them. -/
def stB7 : FVec Ideal S64x8x128 .f32 :=
  pad S64x8x128 ![1, 0, 0] ![0, 0, 0] ![0, 0, 0] (stB6 hw) zpad pads_S63x8x128_S64x8x128_100_000_000 h_S_
/-- Their sum. -/
def stC8 : FVec Ideal S64x8x128 .f32 := addf (stA4 hw) (stB7 hw)
/-- The sum with (patch, offset) flattened to a time step. -/
def stC9 : FVec Ideal S512x128 .f32 := shapeCast S512x128 (stC8 hw) shapeCasts_S64x8x128_S512x128
/-- A padding by nothing. -/
def stC10 : FVec Ideal S512x128 .f32 :=
  pad S512x128 ![0, 0] ![0, 0] ![0, 0] (stC9 hw) zpad pads_S512x128_S512x128_000_000 h_S_
/-- The transpose. -/
def stT : FVec Ideal S128x512 .f32 := transpose S128x512 [1, 0] (stC10 hw) transposes_S512x128_S128x512_1_0

theorem stP_apply (p : Fin 1008) (n : Fin 128) : stP hw (ix2 p n) = Cert.Rose.hwpad hw p n := by
  unfold stP Cert.Rose.hwpad
  by_cases hn : n.val < 96
  · rw [dif_pos hn]
    exact pad_inside _ _ _ hw zpad _ _ (ix2 p n) (ix2 p ⟨n.val, hn⟩) (fun a => by
      match a with
      | ⟨0, _⟩ => show p.val = 0 + p.val * (0 + 1); omega
      | ⟨1, _⟩ => show n.val = 0 + n.val * (0 + 1); omega)
  · rw [dif_neg hn]
    refine (pad_outside _ _ _ hw zpad _ _ (ix2 p n) (1 : Fin 2) (Or.inr ?_)).trans (zpad_apply _)
    show 96 ≤ (n.val - 0) / 1
    omega

/-- Row 16 i + 8 h + t of the padded head weight sits at (i, h, t). -/
theorem stR_apply (i : Fin 63) (h : Fin 2) (t : Fin 8) (n : Fin 128) (p : Fin 1008)
    (hp : p.val = 16 * i.val + 8 * h.val + t.val) :
    stR hw (ix4 i h t n) = Cert.Rose.hwpad hw p n := by
  unfold stR
  refine (shapeCast_apply (stP hw) _ (ix4 i h t n) (ix2 p n) ?_).trans (stP_apply hw p n)
  rw [Shape.rowMajor_val_two, Shape.rowMajor_val_four]
  show p.val * 128 + n.val = ((i.val * 2 + h.val) * 8 + t.val) * 128 + n.val
  omega

theorem stA3_apply (i : Fin 63) (t : Fin 8) (n : Fin 128) (p : Fin 1008) (hp : p.val = 16 * i.val + t.val) :
    stA3 hw (ix3 i t n) = Cert.Rose.hwpad hw p n := by
  unfold stA3
  refine (shapeCast_apply (stA2 hw) _ (ix3 i t n) (ix4 i (0 : Fin 1) t n) ?_).trans ?_
  · rw [Shape.rowMajor_val_four, Shape.rowMajor_val_three]
    show ((i.val * 1 + 0) * 8 + t.val) * 128 + n.val = (i.val * 8 + t.val) * 128 + n.val
    omega
  · unfold stA2
    refine (slice4_axis1_apply 0 (stR hw) _ i (0 : Fin 1) t n (0 : Fin 2) rfl).trans ?_
    exact stR_apply hw i (0 : Fin 2) t n p (by show p.val = 16 * i.val + 8 * 0 + t.val; omega)

theorem stB6_apply (i : Fin 63) (t : Fin 8) (n : Fin 128) (p : Fin 1008) (hp : p.val = 16 * i.val + 8 + t.val) :
    stB6 hw (ix3 i t n) = Cert.Rose.hwpad hw p n := by
  unfold stB6
  refine (shapeCast_apply (stB5 hw) _ (ix3 i t n) (ix4 i (0 : Fin 1) t n) ?_).trans ?_
  · rw [Shape.rowMajor_val_four, Shape.rowMajor_val_three]
    show ((i.val * 1 + 0) * 8 + t.val) * 128 + n.val = (i.val * 8 + t.val) * 128 + n.val
    omega
  · unfold stB5
    refine (slice4_axis1_apply 1 (stR hw) _ i (0 : Fin 1) t n (1 : Fin 2) rfl).trans ?_
    exact stR_apply hw i (1 : Fin 2) t n p (by show p.val = 16 * i.val + 8 * 1 + t.val; omega)

theorem stA4_in (q : Fin 64) (t : Fin 8) (n : Fin 128) (hq : q.val < 63) (p : Fin 1008)
    (hp : p.val = 16 * q.val + t.val) : stA4 hw (ix3 q t n) = Cert.Rose.hwpad hw p n := by
  unfold stA4
  refine (pad_inside _ _ _ (stA3 hw) zpad _ _ (ix3 q t n) (ix3 ⟨q.val, hq⟩ t n) (fun a => by
    match a with
    | ⟨0, _⟩ => show q.val = 0 + q.val * (0 + 1); omega
    | ⟨1, _⟩ => show t.val = 0 + t.val * (0 + 1); omega
    | ⟨2, _⟩ => show n.val = 0 + n.val * (0 + 1); omega)).trans ?_
  exact stA3_apply hw ⟨q.val, hq⟩ t n p hp

theorem stA4_out (q : Fin 64) (t : Fin 8) (n : Fin 128) (hq : ¬ q.val < 63) : stA4 hw (ix3 q t n) = 0 := by
  unfold stA4
  refine (pad_outside _ _ _ (stA3 hw) zpad _ _ (ix3 q t n) (0 : Fin 3) (Or.inr ?_)).trans (zpad_apply _)
  show 63 ≤ (q.val - 0) / 1
  omega

theorem stB7_in (q : Fin 64) (t : Fin 8) (n : Fin 128) (hq : 1 ≤ q.val) (p : Fin 1008)
    (hp : p.val = 16 * (q.val - 1) + 8 + t.val) : stB7 hw (ix3 q t n) = Cert.Rose.hwpad hw p n := by
  have hq' : q.val - 1 < 63 := by have := q.isLt; omega
  unfold stB7
  refine (pad_inside _ _ _ (stB6 hw) zpad _ _ (ix3 q t n) (ix3 ⟨q.val - 1, hq'⟩ t n) (fun a => by
    match a with
    | ⟨0, _⟩ => show q.val = 1 + (q.val - 1) * (0 + 1); omega
    | ⟨1, _⟩ => show t.val = 0 + t.val * (0 + 1); omega
    | ⟨2, _⟩ => show n.val = 0 + n.val * (0 + 1); omega)).trans ?_
  exact stB6_apply hw ⟨q.val - 1, hq'⟩ t n p hp

theorem stB7_out (q : Fin 64) (t : Fin 8) (n : Fin 128) (hq : ¬ 1 ≤ q.val) : stB7 hw (ix3 q t n) = 0 := by
  unfold stB7
  refine (pad_outside _ _ _ (stB6 hw) zpad _ _ (ix3 q t n) (0 : Fin 3) (Or.inl ?_)).trans (zpad_apply _)
  show q.val < 1
  omega

/-- The transposed sum at (n, s) is the folded weight of time step s. -/
theorem stT_apply (n : Fin 128) (s : Fin 512) : stT hw (ix2 n s) = Cert.Rose.weffK hw s n := by
  have hs := s.isLt
  have hq : s.val / 8 < 64 := by omega
  have ht : s.val % 8 < 8 := by omega
  unfold stT
  refine (transpose_ix2_apply (stC10 hw) _ n s).trans ?_
  unfold stC10
  refine (pad_inside _ _ _ (stC9 hw) zpad _ _ (ix2 s n) (ix2 s n) (fun a => by
    match a with
    | ⟨0, _⟩ => show s.val = 0 + s.val * (0 + 1); omega
    | ⟨1, _⟩ => show n.val = 0 + n.val * (0 + 1); omega)).trans ?_
  unfold stC9
  refine (shapeCast_apply (stC8 hw) _ (ix2 s n) (ix3 ⟨s.val / 8, hq⟩ ⟨s.val % 8, ht⟩ n) ?_).trans ?_
  · rw [Shape.rowMajor_val_three, Shape.rowMajor_val_two]
    show (s.val / 8 * 8 + s.val % 8) * 128 + n.val = s.val * 128 + n.val
    omega
  unfold stC8 Cert.Rose.weffK
  refine (addf_apply _ _ _).trans ?_
  refine congrArg₂ (· + ·) ?_ ?_
  · by_cases h1 : s.val / 8 < 63
    · rw [dif_pos h1]
      exact stA4_in hw ⟨s.val / 8, hq⟩ ⟨s.val % 8, ht⟩ n h1 _ rfl
    · rw [dif_neg h1]
      exact stA4_out hw ⟨s.val / 8, hq⟩ ⟨s.val % 8, ht⟩ n h1
  · by_cases h2 : 1 ≤ s.val / 8
    · rw [dif_pos h2]
      exact stB7_in hw ⟨s.val / 8, hq⟩ ⟨s.val % 8, ht⟩ n h2 _ rfl
    · rw [dif_neg h2]
      exact stB7_out hw ⟨s.val / 8, hq⟩ ⟨s.val % 8, ht⟩ n h2

/-! ## The column sums -/

/-- The padded head weight summed over its rows. -/
def stS : FVec Ideal S128 .f32 :=
  Host.reduceAdd (stP hw) (constant (F := Ideal) S_ .f32 0x00000000#32) reducesTo_S1008x128_S128_d0 h_S_
/-- The sums as a column. -/
def stS1 : FVec Ideal S128x1 .f32 := shapeCast S128x1 (stS hw) shapeCasts_S128_S128x1

theorem stS_apply (n : Fin 128) : stS hw (ix1 n) = Cert.Rose.rsum hw n := by
  have hR : S1008x128.Reduces [0] S128 := by decide
  unfold stS Cert.Rose.rsum
  show Ideal.hostReduceAdd reducesTo_S1008x128_S128_d0 (stP hw) (Ideal.ofBits .f32 0x00000000#32) (ix1 n) = _
  rw [Ideal.hostReduceAdd_single reducesTo_S1008x128_S128_d0 hR, Ideal.ofBits_zero_f32, zero_add]
  show ∑ k : Fin 1008, stP hw (hR.lift (ix1 n) k) = ∑ p : Fin 1008, Cert.Rose.hwpad hw p n
  refine Finset.sum_congr rfl fun k _ => ?_
  have hk : hR.lift (ix1 n) k = ix2 k n := funext fun a => by
    match a with
    | ⟨0, _⟩ => exact Fin.ext rfl
    | ⟨1, _⟩ => exact Fin.ext rfl
  rw [hk]
  exact stP_apply hw k n

theorem stS1_apply (n : Fin 128) : stS1 hw (ix2 n (0 : Fin 1)) = Cert.Rose.rsum hw n := by
  unfold stS1
  refine (shapeCast_apply (stS hw) _ (ix2 n (0 : Fin 1)) (ix1 n) ?_).trans (stS_apply hw n)
  rw [Shape.rowMajor_val_one, Shape.rowMajor_val_two]
  show n.val = n.val * 1 + 0
  omega

end Weight

/-! ## The head bias -/

section Bias
variable (hb : FVec Ideal S96 .f32)

/-- The head bias with 32 zeros appended. -/
def stH : FVec Ideal S128 .f32 := pad S128 ![0] ![32] ![0] hb zpad pads_S96_S128_0320 h_S_
/-- The padded bias as a column. -/
def stH1 : FVec Ideal S128x1 .f32 := shapeCast S128x1 (stH hb) shapeCasts_S128_S128x1

theorem stH_apply (n : Fin 128) : stH hb (ix1 n) = Cert.Rose.hbpad hb n := by
  unfold stH Cert.Rose.hbpad
  by_cases hn : n.val < 96
  · rw [dif_pos hn]
    exact pad_inside _ _ _ hb zpad _ _ (ix1 n) (ix1 ⟨n.val, hn⟩) (fun a => by
      match a with
      | ⟨0, _⟩ => show n.val = 0 + n.val * (0 + 1); omega)
  · rw [dif_neg hn]
    refine (pad_outside _ _ _ hb zpad _ _ (ix1 n) (0 : Fin 1) (Or.inr ?_)).trans (zpad_apply _)
    show 96 ≤ (n.val - 0) / 1
    omega

theorem stH1_apply (n : Fin 128) : stH1 hb (ix2 n (0 : Fin 1)) = Cert.Rose.hbpad hb n := by
  unfold stH1
  refine (shapeCast_apply (stH hb) _ (ix2 n (0 : Fin 1)) (ix1 n) ?_).trans (stH_apply hb n)
  rw [Shape.rowMajor_val_one, Shape.rowMajor_val_two]
  show n.val = n.val * 1 + 0
  omega

end Bias

/-! ## The reciprocal of the affine weight -/

section Recip
variable (w : FVec Ideal S321 .f32)

/-- 1 / (w + ε²), the weight laid out as a row. -/
def stI : FVec Ideal S1x321 .f32 :=
  Host.divf (broadcastInDim S1x321 ![] bcast_S_S1x321 (constant (F := Ideal) S_ .f32 0x3F800000#32))
    (addf (shapeCast S1x321 w shapeCasts_S321_S1x321)
      (broadcastInDim S1x321 ![] bcast_S_S1x321 (constant (F := Ideal) S_ .f32 0x2EDBE6FF#32)))

theorem stI_apply (k : Fin 321) : stI w (ix2 (0 : Fin 1) k) = Cert.Rose.invw (w (ix1 k)) := by
  unfold stI Cert.Rose.invw Cert.Rose.one Cert.Rose.eps2
  show Ideal.div (Ideal.ofBits .f32 0x3F800000#32)
      (shapeCast S1x321 w shapeCasts_S321_S1x321 (ix2 (0 : Fin 1) k) + Ideal.ofBits .f32 0x2EDBE6FF#32) = _
  rw [shapeCast_a_1a_apply]

end Recip

end Wrap

/-! ## The call's operand arrays -/

variable (m : (ℓ : Loc nD τ sig) → Buf (Elt Ideal) ℓ) (c : Dev nD)

/-- The folded weight's array is the stages above applied to the head weight. -/
theorem V_hwT_eq : (Gen.V m c main_call0_v11 : S128x512.Idx → EReal) = Wrap.stT (aHW m c) := by
  show StableHlo.after (Gen.hostOps0 (F := Ideal)) (fun b => m (c, b)) (Proc.devRef .tc main_call0_v11) = _
  after_results
  all_goals rfl

/-- The column sums' array likewise. -/
theorem V_rs_eq : (Gen.V m c main_call0_v13 : S128x1.Idx → EReal) = Wrap.stS1 (aHW m c) := by
  show StableHlo.after (Gen.hostOps0 (F := Ideal)) (fun b => m (c, b)) (Proc.devRef .tc main_call0_v13) = _
  after_results
  all_goals rfl

/-- The padded head bias's array. -/
theorem V_hb_eq : (Gen.V m c main_call0_v15 : S128x1.Idx → EReal) = Wrap.stH1 (aHB m c) := by
  show StableHlo.after (Gen.hostOps0 (F := Ideal)) (fun b => m (c, b)) (Proc.devRef .tc main_call0_v15) = _
  after_results
  all_goals rfl

/-- The affine weight's row is the weight reshaped. -/
theorem V_w_eq : (Gen.V m c main_call0_v16 : S1x321.Idx → EReal)
    = shapeCast S1x321 (aW m c : FVec Ideal S321 .f32) shapeCasts_S321_S1x321 := by
  show StableHlo.after (Gen.hostOps0 (F := Ideal)) (fun b => m (c, b)) (Proc.devRef .tc main_call0_v16) = _
  after_results
  all_goals rfl

/-- The affine bias's row is the bias reshaped. -/
theorem V_b_eq : (Gen.V m c main_call0_v17 : S1x321.Idx → EReal)
    = shapeCast S1x321 (aB m c : FVec Ideal S321 .f32) shapeCasts_S321_S1x321 := by
  show StableHlo.after (Gen.hostOps0 (F := Ideal)) (fun b => m (c, b)) (Proc.devRef .tc main_call0_v17) = _
  after_results
  all_goals rfl

/-- The reciprocal's row. -/
theorem V_iw_eq : (Gen.V m c main_call0_v21 : S1x321.Idx → EReal) = Wrap.stI (aW m c) := by
  show StableHlo.after (Gen.hostOps0 (F := Ideal)) (fun b => m (c, b)) (Proc.devRef .tc main_call0_v21) = _
  after_results
  all_goals rfl

/-- The transposed folded weight at (n, s). -/
theorem V_hwT (n : Fin 128) (s : Fin 512) :
    (Gen.V m c main_call0_v11 : S128x512.Idx → EReal) (ix2 n s) = Cert.Rose.weffK (aHW m c) s n :=
  (congrFun (V_hwT_eq m c) (ix2 n s)).trans (Wrap.stT_apply (aHW m c) n s)

/-- The column sums at (n, 0). -/
theorem V_rs (n : Fin 128) :
    (Gen.V m c main_call0_v13 : S128x1.Idx → EReal) (ix2 n (0 : Fin 1)) = Cert.Rose.rsum (aHW m c) n :=
  (congrFun (V_rs_eq m c) (ix2 n (0 : Fin 1))).trans (Wrap.stS1_apply (aHW m c) n)

/-- The padded head bias at (n, 0). -/
theorem V_hb (n : Fin 128) :
    (Gen.V m c main_call0_v15 : S128x1.Idx → EReal) (ix2 n (0 : Fin 1)) = Cert.Rose.hbpad (aHB m c) n :=
  (congrFun (V_hb_eq m c) (ix2 n (0 : Fin 1))).trans (Wrap.stH1_apply (aHB m c) n)

/-- The affine weight as a row. -/
theorem V_w (k : Fin 321) :
    (Gen.V m c main_call0_v16 : S1x321.Idx → EReal) (ix2 (0 : Fin 1) k) = aW m c (ix1 k) :=
  (congrFun (V_w_eq m c) (ix2 (0 : Fin 1) k)).trans (shapeCast_a_1a_apply (aW m c) _ (0 : Fin 1) k)

/-- The affine bias as a row. -/
theorem V_b (k : Fin 321) :
    (Gen.V m c main_call0_v17 : S1x321.Idx → EReal) (ix2 (0 : Fin 1) k) = aB m c (ix1 k) :=
  (congrFun (V_b_eq m c) (ix2 (0 : Fin 1) k)).trans (shapeCast_a_1a_apply (aB m c) _ (0 : Fin 1) k)

/-- The hoisted reciprocal as a row. -/
theorem V_iw (k : Fin 321) :
    (Gen.V m c main_call0_v21 : S1x321.Idx → EReal) (ix2 (0 : Fin 1) k) = Cert.Rose.invw (aW m c (ix1 k)) :=
  (congrFun (V_iw_eq m c) (ix2 (0 : Fin 1) k)).trans (Wrap.stI_apply (aW m c) k)

end Cert.KernelIdeal.RoseK

end
-- ==== Proof.KValue.lean ====
/-
  The kernel program's run with its results named: grid point t writes block t of the prediction, each entry the
  value `kerVal` of its series; the 64 blocks tile the array; the two scalar results are zero.
-/
import proofs.«155378_g2000605969816161_pallasbulk_1287_4_alg».proof.Proof.Gen.KernelIdeal.Frame
import proofs.«155378_g2000605969816161_pallasbulk_1287_4_alg».proof.Proof.KArgs
import proofs.«155378_g2000605969816161_pallasbulk_1287_4_alg».proof.Proof.KPayload
import proofs.«155378_g2000605969816161_pallasbulk_1287_4_alg».proof.Proof.KHost
import Idealize.ShloMosaic.Lib.Pipeline.Value
import Idealize.ShloMosaic.Lib.StableHlo.Run

noncomputable section

namespace Cert.KernelIdeal.RoseK

open Idealize.ShloMosaic Idealize.ShloMosaic.TcCoe Idealize.ShloMosaic.ValueIdx Idealize.SL.Sem
open Cert.KernelIdeal Cert.KernelIdeal.Gen
open scoped BigOperators

variable (m : (ℓ : Loc nD τ sig) → Buf (Elt Ideal) ℓ)

/-! ## Where the blocks sit -/

theorem zero3 : (![0, 0, 0] : Fin 3 → Nat) = fun _ => 0 := funext fun a => by fin_cases a <;> rfl
theorem zero2 : (![0, 0] : Fin 2 → Nat) = fun _ => 0 := funext fun a => by fin_cases a <;> rfl

/-- Grid point t reads the series of batch entry t, whole. -/
theorem seriesIndex : ∀ t : Fin cfg0.N,
    win0_0.index t (0 : Fin 3) = t.val ∧ win0_0.index t (1 : Fin 3) = 0 ∧ win0_0.index t (2 : Fin 3) = 0 :=
  (by decide +kernel : ∀ t : Fin grid0.N, _)
/-- Every grid point reads the affine weight row whole, -/
theorem wIndex : ∀ t : Fin cfg0.N, win0_1.index t (0 : Fin 2) = 0 ∧ win0_1.index t (1 : Fin 2) = 0 :=
  (by decide +kernel : ∀ t : Fin grid0.N, _)
/-- the affine bias row whole, -/
theorem bIndex : ∀ t : Fin cfg0.N, win0_2.index t (0 : Fin 2) = 0 ∧ win0_2.index t (1 : Fin 2) = 0 :=
  (by decide +kernel : ∀ t : Fin grid0.N, _)
/-- the reciprocal row whole, -/
theorem iwIndex : ∀ t : Fin cfg0.N, win0_3.index t (0 : Fin 2) = 0 ∧ win0_3.index t (1 : Fin 2) = 0 :=
  (by decide +kernel : ∀ t : Fin grid0.N, _)
/-- the transposed folded weight whole, -/
theorem hwTIndex : ∀ t : Fin cfg0.N, win0_4.index t (0 : Fin 2) = 0 ∧ win0_4.index t (1 : Fin 2) = 0 :=
  (by decide +kernel : ∀ t : Fin grid0.N, _)
/-- the padded head bias whole, -/
theorem hbIndex : ∀ t : Fin cfg0.N, win0_5.index t (0 : Fin 2) = 0 ∧ win0_5.index t (1 : Fin 2) = 0 :=
  (by decide +kernel : ∀ t : Fin grid0.N, _)
/-- and the column sums whole. -/
theorem rsIndex : ∀ t : Fin cfg0.N, win0_6.index t (0 : Fin 2) = 0 ∧ win0_6.index t (1 : Fin 2) = 0 :=
  (by decide +kernel : ∀ t : Fin grid0.N, _)
/-- Grid point t writes the prediction of batch entry t, whole. -/
theorem predIndex : ∀ t : Fin cfg0.N,
    win0_7.index t (0 : Fin 3) = t.val ∧ win0_7.index t (1 : Fin 3) = 0 ∧ win0_7.index t (2 : Fin 3) = 0 :=
  (by decide +kernel : ∀ t : Fin grid0.N, _)

/-! ## Each loaded block as entries of the array it is cut from -/

/-- The series block at point t is batch entry t of the series array. -/
theorem seriesBlk (c : Dev nD) (t : Fin cfg0.N) (s : Fin 512) (k : Fin 321) (bb : Fin 64) (hbb : bb.val = t.val) :
    (iblk m c 0 t : Vec Ideal S1x512x321 .f32) (ix3 (0 : Fin 1) s k)
      = (V m c main_arg0 : S64x512x321.Idx → EReal) (ix3 bb s k) := by
  obtain ⟨e0, e1, e2⟩ := seriesIndex t
  unfold iblk
  show (V m c main_arg0 : S64x512x321.Idx → EReal) (((cfg0.win 0).blk t).view.emb (ix3 (0 : Fin 1) s k)) = _
  refine congrArg (V m c main_arg0 : S64x512x321.Idx → EReal) ?_
  funext a
  apply Fin.ext
  match a with
  | ⟨0, _⟩ => show win0_0.index t (0 : Fin 3) * 1 + 1 * 0 = bb.val; omega
  | ⟨1, _⟩ => show win0_0.index t (1 : Fin 3) * 512 + 1 * s.val = s.val; omega
  | ⟨2, _⟩ => show win0_0.index t (2 : Fin 3) * 321 + 1 * k.val = k.val; omega

/-- The affine weight block is the whole row. -/
theorem wBlk (c : Dev nD) (t : Fin cfg0.N) :
    (iblk m c 1 t : Vec Ideal S1x321 .f32) = (V m c main_call0_v16 : S1x321.Idx → EReal) := by
  obtain ⟨e0, e1⟩ := wIndex t
  funext x
  unfold iblk
  show (V m c main_call0_v16 : S1x321.Idx → EReal) (((cfg0.win 1).blk t).view.emb x) = _
  refine congrArg (V m c main_call0_v16 : S1x321.Idx → EReal) ?_
  funext a
  apply Fin.ext
  match a with
  | ⟨0, _⟩ => show win0_1.index t (0 : Fin 2) * 1 + 1 * (x 0).val = (x 0).val; omega
  | ⟨1, _⟩ => show win0_1.index t (1 : Fin 2) * 321 + 1 * (x 1).val = (x 1).val; omega

/-- The affine bias block is the whole row. -/
theorem bBlk (c : Dev nD) (t : Fin cfg0.N) :
    (iblk m c 2 t : Vec Ideal S1x321 .f32) = (V m c main_call0_v17 : S1x321.Idx → EReal) := by
  obtain ⟨e0, e1⟩ := bIndex t
  funext x
  unfold iblk
  show (V m c main_call0_v17 : S1x321.Idx → EReal) (((cfg0.win 2).blk t).view.emb x) = _
  refine congrArg (V m c main_call0_v17 : S1x321.Idx → EReal) ?_
  funext a
  apply Fin.ext
  match a with
  | ⟨0, _⟩ => show win0_2.index t (0 : Fin 2) * 1 + 1 * (x 0).val = (x 0).val; omega
  | ⟨1, _⟩ => show win0_2.index t (1 : Fin 2) * 321 + 1 * (x 1).val = (x 1).val; omega

/-- The reciprocal block is the whole row. -/
theorem iwBlk (c : Dev nD) (t : Fin cfg0.N) :
    (iblk m c 3 t : Vec Ideal S1x321 .f32) = (V m c main_call0_v21 : S1x321.Idx → EReal) := by
  obtain ⟨e0, e1⟩ := iwIndex t
  funext x
  unfold iblk
  show (V m c main_call0_v21 : S1x321.Idx → EReal) (((cfg0.win 3).blk t).view.emb x) = _
  refine congrArg (V m c main_call0_v21 : S1x321.Idx → EReal) ?_
  funext a
  apply Fin.ext
  match a with
  | ⟨0, _⟩ => show win0_3.index t (0 : Fin 2) * 1 + 1 * (x 0).val = (x 0).val; omega
  | ⟨1, _⟩ => show win0_3.index t (1 : Fin 2) * 321 + 1 * (x 1).val = (x 1).val; omega

/-- The folded weight block is the whole transposed matrix. -/
theorem hwTBlk (c : Dev nD) (t : Fin cfg0.N) :
    (iblk m c 4 t : Vec Ideal S128x512 .f32) = (V m c main_call0_v11 : S128x512.Idx → EReal) := by
  obtain ⟨e0, e1⟩ := hwTIndex t
  funext x
  unfold iblk
  show (V m c main_call0_v11 : S128x512.Idx → EReal) (((cfg0.win 4).blk t).view.emb x) = _
  refine congrArg (V m c main_call0_v11 : S128x512.Idx → EReal) ?_
  funext a
  apply Fin.ext
  match a with
  | ⟨0, _⟩ => show win0_4.index t (0 : Fin 2) * 128 + 1 * (x 0).val = (x 0).val; omega
  | ⟨1, _⟩ => show win0_4.index t (1 : Fin 2) * 512 + 1 * (x 1).val = (x 1).val; omega

/-- The head bias block is the whole padded column. -/
theorem hbBlk (c : Dev nD) (t : Fin cfg0.N) :
    (iblk m c 5 t : Vec Ideal S128x1 .f32) = (V m c main_call0_v15 : S128x1.Idx → EReal) := by
  obtain ⟨e0, e1⟩ := hbIndex t
  funext x
  unfold iblk
  show (V m c main_call0_v15 : S128x1.Idx → EReal) (((cfg0.win 5).blk t).view.emb x) = _
  refine congrArg (V m c main_call0_v15 : S128x1.Idx → EReal) ?_
  funext a
  apply Fin.ext
  match a with
  | ⟨0, _⟩ => show win0_5.index t (0 : Fin 2) * 128 + 1 * (x 0).val = (x 0).val; omega
  | ⟨1, _⟩ => show win0_5.index t (1 : Fin 2) * 1 + 1 * (x 1).val = (x 1).val; omega

/-- The column-sum block is the whole column. -/
theorem rsBlk (c : Dev nD) (t : Fin cfg0.N) :
    (iblk m c 6 t : Vec Ideal S128x1 .f32) = (V m c main_call0_v13 : S128x1.Idx → EReal) := by
  obtain ⟨e0, e1⟩ := rsIndex t
  funext x
  unfold iblk
  show (V m c main_call0_v13 : S128x1.Idx → EReal) (((cfg0.win 6).blk t).view.emb x) = _
  refine congrArg (V m c main_call0_v13 : S128x1.Idx → EReal) ?_
  funext a
  apply Fin.ext
  match a with
  | ⟨0, _⟩ => show win0_6.index t (0 : Fin 2) * 128 + 1 * (x 0).val = (x 0).val; omega
  | ⟨1, _⟩ => show win0_6.index t (1 : Fin 2) * 1 + 1 * (x 1).val = (x 1).val; omega

/-! ## The prediction as one function of the arrays the call is handed -/

/-- `kerVal` is a function of its seven arguments. -/
theorem kerVal_congr {X X' : Fin 512 → EReal} {w w' b b' iw iw' : EReal} {Wn Wn' : Fin 512 → EReal} {r r' h h' : EReal}
    (hX : X = X') (hw : w = w') (hb : b = b') (hiw : iw = iw') (hW : Wn = Wn') (hr : r = r') (hh : h = h') :
    Cert.Rose.kerVal X w b iw Wn r h = Cert.Rose.kerVal X' w' b' iw' Wn' r' h' := by
  subst hX hw hb hiw hW hr hh; rfl

/-- The prediction at batch entry bb, output position n, channel k, from the seven arrays as the call finds them:
    the series array, the affine weight, bias and reciprocal rows, the transposed folded weight, its column sums
    and the padded head bias. -/
def handedAt (c : Dev nD) (bb : Fin 64) (n : Fin 96) (k : Fin 321) : EReal :=
  Cert.Rose.kerVal (fun s => (V m c main_arg0 : S64x512x321.Idx → EReal) (ix3 bb s k))
    ((V m c main_call0_v16 : S1x321.Idx → EReal) (ix2 (0 : Fin 1) k))
    ((V m c main_call0_v17 : S1x321.Idx → EReal) (ix2 (0 : Fin 1) k))
    ((V m c main_call0_v21 : S1x321.Idx → EReal) (ix2 (0 : Fin 1) k))
    (fun s => (V m c main_call0_v11 : S128x512.Idx → EReal) (ix2 (Cert.Rose.up n) s))
    ((V m c main_call0_v13 : S128x1.Idx → EReal) (ix2 (Cert.Rose.up n) (0 : Fin 1)))
    ((V m c main_call0_v15 : S128x1.Idx → EReal) (ix2 (Cert.Rose.up n) (0 : Fin 1)))

/-- The whole prediction array from them. -/
def handed (c : Dev nD) : S64x96x321.Idx → EReal := fun i => handedAt m c (i 0) (i 1) (i 2)

/-- One entry of the block a grid point stores, from the blocks it loads: position (n, k) of the block is the
    value of the block's series k against row n of the folded weight. -/
theorem stored_at (x0 : Vec Ideal S1x512x321 .f32) (x1 x2 x3 : Vec Ideal S1x321 .f32) (x4 : Vec Ideal S128x512 .f32)
    (x5 x6 : Vec Ideal S128x1 .f32) (y : S1x96x321.Idx) :
    k0_pay1 (F := Ideal) (k0_pay3 x0) (k0_pay7 x0 x3) (k0_pay8 x0 x4 x1) (k0_pay9 x0 x1 x6 x2) x5 x2 y
      = Cert.Rose.kerVal (fun s => x0 (ix3 (0 : Fin 1) s (y 2))) (x1 (ix2 (0 : Fin 1) (y 2))) (x2 (ix2 (0 : Fin 1) (y 2)))
          (x3 (ix2 (0 : Fin 1) (y 2))) (fun s => x4 (ix2 (Cert.Rose.up (y 1)) s))
          (x6 (ix2 (Cert.Rose.up (y 1)) (0 : Fin 1))) (x5 (ix2 (Cert.Rose.up (y 1)) (0 : Fin 1))) := by
  obtain ⟨a, n, k, rfl⟩ : ∃ (a : Fin 1) (n : Fin 96) (k : Fin 321), y = ix3 a n k := ⟨y 0, y 1, y 2, eq_ix3 y⟩
  obtain rfl : a = 0 := Fin.ext (Nat.lt_one_iff.mp a.isLt)
  exact pay_apply x0 x4 x1 x2 x3 x6 x5 n k

/-- The value built from the blocks point t loads is the handed arrays' value at batch entry t. -/
theorem loaded_eq_handed (c : Dev nD) (t : Fin cfg0.N) (n : Fin 96) (k : Fin 321) (bb : Fin 64) (n' : Fin 96) (k' : Fin 321)
    (hbb : bb.val = t.val) (hn : n'.val = n.val) (hk : k'.val = k.val) :
    Cert.Rose.kerVal (fun s => (iblk m c 0 t : Vec Ideal S1x512x321 .f32) (ix3 (0 : Fin 1) s k))
        ((iblk m c 1 t : Vec Ideal S1x321 .f32) (ix2 (0 : Fin 1) k))
        ((iblk m c 2 t : Vec Ideal S1x321 .f32) (ix2 (0 : Fin 1) k))
        ((iblk m c 3 t : Vec Ideal S1x321 .f32) (ix2 (0 : Fin 1) k))
        (fun s => (iblk m c 4 t : Vec Ideal S128x512 .f32) (ix2 (Cert.Rose.up n) s))
        ((iblk m c 6 t : Vec Ideal S128x1 .f32) (ix2 (Cert.Rose.up n) (0 : Fin 1)))
        ((iblk m c 5 t : Vec Ideal S128x1 .f32) (ix2 (Cert.Rose.up n) (0 : Fin 1)))
      = handedAt m c bb n' k' := by
  obtain rfl : n' = n := Fin.ext hn
  obtain rfl : k' = k := Fin.ext hk
  unfold handedAt
  exact kerVal_congr (funext fun s => seriesBlk m c t s _ bb hbb) (congrFun (wBlk m c t) _) (congrFun (bBlk m c t) _)
    (congrFun (iwBlk m c t) _) (funext fun s => congrFun (hwTBlk m c t) _) (congrFun (rsBlk m c t) _)
    (congrFun (hbBlk m c t) _)

/-! ## What each grid point writes back, and the array after the run -/

/-- Grid point t writes back block t of the prediction computed from the handed arrays. -/
theorem flushed7_eq (c : Dev nD) (t : Fin cfg0.N) :
    (dats m 0 c).flushed 7 t = ((cfg0.win 7).blk t).view.read (Elt Ideal) (handed m c) := by
  show (cfg0.win 7).cut (grid0.coords t) ((dats m 0 c).after 7 t) = _
  rw [after0_7]
  unfold out0_7
  rw [View.canon_unit_zero zero3]
  simp only [View.ld_unit_zero (S := S1x512x321) zero3, View.ld_unit_zero (S := S1x321) zero2,
    View.ld_unit_zero (S := S128x512) zero2, View.ld_unit_zero (S := S128x1) zero2]
  obtain ⟨e0, e1, e2⟩ := predIndex t
  funext y
  have hy0 : (y 0).val < 1 := (y 0).isLt
  refine (stored_at (iblk m c 0 t) (iblk m c 1 t) (iblk m c 2 t) (iblk m c 3 t) (iblk m c 4 t) (iblk m c 5 t)
    (iblk m c 6 t) y).trans ?_
  show _ = handedAt m c ((((cfg0.win 7).blk t).view.emb y) 0) ((((cfg0.win 7).blk t).view.emb y) 1)
    ((((cfg0.win 7).blk t).view.emb y) 2)
  exact loaded_eq_handed m c t (y 1) (y 2) _ _ _
    (by show win0_7.index t (0 : Fin 3) * 1 + 1 * (y 0).val = t.val; omega)
    (by show win0_7.index t (1 : Fin 3) * 96 + 1 * (y 1).val = (y 1).val; omega)
    (by show win0_7.index t (2 : Fin 3) * 321 + 1 * (y 2).val = (y 2).val; omega)

/-- An index of the prediction array is in point t's block iff each coordinate is in the block's range on its axis. -/
theorem mem_blk7 (t : Fin cfg0.N) (i : S64x96x321.Idx) :
    i ∈ ((cfg0.win 7).blk t).view.set ↔ ∀ a : Fin 3, win0_7.index t a * S1x96x321.size a ≤ (i a).val
      ∧ (i a).val < win0_7.index t a * S1x96x321.size a + S1x96x321.size a := by
  show i ∈ ((View.whole main_v0_0).slice (win0_7.rect t)).set ↔ _
  rw [View.set_slice_whole, Rect.mem_set_unit]
  exact Iff.rfl

/-- The 64 blocks tile the prediction array: batch entry bb is written by grid point bb. -/
theorem covered7 (i : S64x96x321.Idx) :
    ∃ t : Fin cfg0.N, (cfg0.win 7).flush t = true ∧ i ∈ ((cfg0.win 7).blk t).view.set := by
  have hi0 : (i 0).val < 64 := (i 0).isLt
  have hi1 : (i 1).val < 96 := (i 1).isLt
  have hi2 : (i 2).val < 321 := (i 2).isLt
  obtain ⟨t, ht⟩ : ∃ t : Fin cfg0.N, t.val = (i 0).val := ⟨⟨(i 0).val, lt_of_lt_of_eq hi0 N_0.symm⟩, rfl⟩
  obtain ⟨e0, e1, e2⟩ := predIndex t
  refine ⟨t, flush0_7 t, ?_⟩
  rw [mem_blk7]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 96 ≤ (i 1).val ∧ (i 1).val < win0_7.index t (1 : Fin 3) * 96 + 96
    omega
  | ⟨2, _⟩ =>
    show win0_7.index t (2 : Fin 3) * 321 ≤ (i 2).val ∧ (i 2).val < win0_7.index t (2 : Fin 3) * 321 + 321
    omega

/-- So the prediction array ends holding that function of the handed arrays. -/
theorem arr7_handed (c : Dev nD) : (dats m 0 c).arrAt 7 cfg0.N = handed m c :=
  (dats m 0 c).arrAt_eq_of_cover 7 (handed m c) (fun t _ => flushed7_eq m c t) covered7

/-! ## The handed arrays in terms of the program's arguments -/

/-- With the wrapper's arrays read entry by entry, the handed arrays' value is the kernel's result. -/
theorem handedAt_eq (c : Dev nD) (bb : Fin 64) (n : Fin 96) (k : Fin 321) :
    handedAt m c bb n k = Cert.Rose.outKat (aX m c) (aW m c) (aB m c) (aHW m c) (aHB m c) bb n k := by
  unfold handedAt Cert.Rose.outKat Cert.Rose.col
  exact kerVal_congr (funext fun s => congrFun (V_main_arg0 m c) _) (V_w m c k) (V_b m c k) (V_iw m c k)
    (funext fun s => V_hwT m c (Cert.Rose.up n) s) (V_rs m c (Cert.Rose.up n)) (V_hb m c (Cert.Rose.up n))

/-- The prediction array after the run is the kernel's whole result. -/
theorem final7 (c : Dev nD) :
    ((Gen.dats m 0 c).arrAt 7 cfg0.N : S64x96x321.Idx → EReal) = Cert.Rose.outK (aX m c) (aW m c) (aB m c) (aHW m c) (aHB m c) := by
  refine (arr7_handed m c).trans ?_
  funext i
  show handedAt m c (i 0) (i 1) (i 2) = Cert.Rose.outKat (aX m c) (aW m c) (aB m c) (aHW m c) (aHB m c) (i 0) (i 1) (i 2)
  exact handedAt_eq m c (i 0) (i 1) (i 2)

/-! ## The two scalar results, and the run -/

/-- The first scalar result is the constant zero the program's last lines write. -/
theorem tail_v0_1 (c : Dev nD) :
    Pipeline.afterTail₀ cfgs (dats m) 0 (V0 m) [hostOps1] c main_v0_1 = Cert.Rose.zeroS := by
  unfold Pipeline.afterTail₀
  show StableHlo.after hostOps1 _ (Proc.devRef .tc main_v0_1) = _
  after_results
  rfl

/-- So is the second. -/
theorem tail_v0_2 (c : Dev nD) :
    Pipeline.afterTail₀ cfgs (dats m) 0 (V0 m) [hostOps1] c main_v0_2 = Cert.Rose.zeroS := by
  unfold Pipeline.afterTail₀
  show StableHlo.after hostOps1 _ (Proc.devRef .tc main_v0_2) = _
  after_results
  rfl

/-- Every weakly fair execution ends with the three results at these values and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Cert.Rose.outK (aX m c) (aW m c) (aB m c) (aHW m c) (aHB m c)
      ∧ r.2.mem ((c.tc : Thread nD τ).loc main_v0_1) = Cert.Rose.zeroS
      ∧ r.2.mem ((c.tc : Thread nD τ).loc main_v0_2) = Cert.Rose.zeroS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨((h c).1 7).trans (final7 m c),
      ((h c).2 main_v0_1 (Pipeline.mem_restRefs_of main_v0_1 (by decide) (by decide))).trans (tail_v0_1 m c),
      ((h c).2 main_v0_2 (Pipeline.mem_restRefs_of main_v0_2 (by decide) (by decide))).trans (tail_v0_2 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (Gen.run_main m ρ)

end Cert.KernelIdeal.RoseK

end
-- ==== Proof.RArgs.lean ====
/-
  The reference program's five argument arrays on a core, as functions of their indices.
-/
import proofs.«155378_g2000605969816161_pallasbulk_1287_4_alg».proof.Proof.Gen.ReferenceIdeal
import proofs.«155378_g2000605969816161_pallasbulk_1287_4_alg».proof.Proof.RoseSpec

noncomputable section

namespace Cert.ReferenceIdeal.RoseR

open Idealize.ShloMosaic Idealize.ShloMosaic.TcCoe Idealize.ShloMosaic.ValueIdx Idealize.SL.Sem
open Cert.ReferenceIdeal
open scoped BigOperators

variable (m : (ℓ : Loc nD τ sig) → Buf (Elt Ideal) ℓ) (c : Dev nD)

/-- The input series, [64, 512, 321]. -/
abbrev aX : Cert.Rose.SX.Idx → EReal := m ((c.tc : Thread nD τ).loc main_arg0)
/-- The affine weight, [321]. -/
abbrev aW : Cert.Rose.SC.Idx → EReal := m ((c.tc : Thread nD τ).loc main_arg1)
/-- The affine bias, [321]. -/
abbrev aB : Cert.Rose.SC.Idx → EReal := m ((c.tc : Thread nD τ).loc main_arg2)
/-- The head weight, [1008, 96]. -/
abbrev aHW : Cert.Rose.SHW.Idx → EReal := m ((c.tc : Thread nD τ).loc main_arg3)
/-- The head bias, [96]. -/
abbrev aHB : Cert.Rose.SHB.Idx → EReal := m ((c.tc : Thread nD τ).loc main_arg4)

end Cert.ReferenceIdeal.RoseR

end
-- ==== Proof.RPayload.lean ====
/-
  The reference body's stored value at (r, n) of its block: the value `refVal` of row r's series and parameters,
  column n of the folded weight and the n-th head bias.

  The body is read one operation at a time. Each pointwise operation at an index is the operation on the elements;
  each keepdims column [256, 1] broadcast along a row reads the column's entry of that row; a sum along the rows
  read at row r is the sum over the row's 512 entries; the matrix product into a zero accumulator read at (r, n) is
  the sum over s of (row r, entry s) times (entry s, column n). With every operation read so, the stored value is
  term for term the right-hand side.
-/
import proofs.«155378_g2000605969816161_pallasbulk_1287_4_alg».proof.Proof.Gen.ReferenceIdeal.Skeleton
import proofs.«155378_g2000605969816161_pallasbulk_1287_4_alg».proof.Proof.RoseSpec
import proofs.«155378_g2000605969816161_pallasbulk_1287_4_alg».proof.Proof.LibPlainDot
import Idealize.ShloMosaic.Lib.Pipeline.Value
import Idealize.ShloMosaic.Lib.ValueLayout
import Idealize.ShloMosaic.PureOps.Ideal.Laws

noncomputable section

namespace Cert.ReferenceIdeal.RoseR

open Idealize.ShloMosaic Idealize.ShloMosaic.TcCoe Idealize.ShloMosaic.ValueIdx Idealize.SL.Sem
open Cert.ReferenceIdeal Cert.ReferenceIdeal.Gen
open scoped BigOperators

/-! ## Layout operations on a column, read at an index -/

section Forms
variable {α : Type}

/-- A vector [a] viewed as a column [a, 1] reads, at (i, u), the vector at i: both have row-major position i. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along rows of length b reads, at (p, c), the column's entry of row p. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Forms

/-- The sum along the rows of an [a, b] array, read at row r: the sum over the row's b entries. The index the sum
    inserts its coordinate s into, over the result index r, is (r, s), coordinate by coordinate. -/
private theorem rowsum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ s : Fin b, v (ix2 r s) := by
  refine (Ideal.multiReduction_add_single v 0x00000000#32 h hφ hacc (ix1 r)).trans ?_
  show (∑ k : Fin b, v (h.lift (ix1 r) k)) = _
  refine Finset.sum_congr rfl fun k _ => congrArg v ?_
  funext c
  refine Fin.ext ?_
  match c with
  | ⟨0, _⟩ => rfl
  | ⟨1, _⟩ => rfl

/-- The body's matrix product contracts the left operand's columns with the right operand's rows, nothing else. -/
private theorem dot_plain : PlainDot.IsPlain dot_S256x512_S512x128_S256x128_1_0_0_1_n_n :=
  ⟨rfl, rfl, rfl, rfl, rfl, rfl⟩

/-! ## The payloads at an index -/

section Payloads
variable (v0 : Vec Ideal S256x512 .f32)

/-- The same-shape cast of the loaded series is the series. -/
private theorem pay2_eq : k0_pay2 (F := Ideal) v0 = v0 := shapeCast_self v0 _

/-- The mean column at row r: the row's sum times 1/512. -/
private theorem pay3_apply (r : Fin 256) (u : Fin 1) :
    k0_pay3 (F := Ideal) v0 (ix2 r u) = Cert.Rose.mean (fun s => v0 (ix2 r s)) := by
  unfold k0_pay3
  refine (mulf_apply _ _ _).trans ?_
  refine congrArg₂ (· * ·) ?_ rfl
  refine (shapeCast_a_a1_apply _ _ r u).trans ?_
  refine (rowsum_apply _ _ _ _ r).trans ?_
  exact Finset.sum_congr rfl fun s _ => congrFun (pay2_eq v0) _

/-- The centred series at (r, s): the entry less the row's mean. -/
private theorem pay4_apply (r : Fin 256) (s : Fin 512) :
    k0_pay4 (F := Ideal) v0 (ix2 r s) = v0 (ix2 r s) - Cert.Rose.mean (fun s => v0 (ix2 r s)) := by
  unfold k0_pay4
  refine (subf_apply _ _ _).trans ?_
  refine congrArg₂ (· - ·) (congrFun (pay2_eq v0) _) ?_
  exact (broadcastTo_a1_ab_apply _ _ r s).trans (pay3_apply v0 r 0)

/-- The variance column at row r: the sum of the squared centred entries times 1/512. -/
private theorem pay5_apply (r : Fin 256) (u : Fin 1) :
    k0_pay5 (F := Ideal) v0 (ix2 r u) = Cert.Rose.var (fun s => v0 (ix2 r s)) := by
  unfold k0_pay5
  refine (mulf_apply _ _ _).trans ?_
  refine congrArg₂ (· * ·) ?_ rfl
  refine (shapeCast_a_a1_apply _ _ r u).trans ?_
  refine (rowsum_apply _ _ _ _ r).trans ?_
  refine Finset.sum_congr rfl fun s _ => ?_
  refine (mulf_apply _ _ _).trans ?_
  exact congrArg₂ (· * ·) (pay4_apply v0 r s) (pay4_apply v0 r s)

/-- The inverse deviation column at row r: the reciprocal square root of the regularised variance. -/
private theorem pay6_apply (r : Fin 256) (u : Fin 1) :
    k0_pay6 (F := Ideal) v0 (ix2 r u) = Cert.Rose.istd (fun s => v0 (ix2 r s)) := by
  unfold k0_pay6
  show Ideal.rsqrt (k0_pay5 (F := Ideal) v0 (ix2 r u) + Cert.Rose.eps) = _
  rw [pay5_apply]
  rfl

/-- The denormalising scale column at row r: the row's reciprocal weight times the deviation. -/
private theorem pay8_apply (v36 : Vec Ideal S256x1 .f32) (r : Fin 256) (u : Fin 1) :
    k0_pay8 (F := Ideal) v0 v36 (ix2 r u) = v36 (ix2 r u) * Cert.Rose.std (fun s => v0 (ix2 r s)) := by
  unfold k0_pay8
  refine (mulf_apply _ _ _).trans ?_
  refine congrArg₂ (· * ·) (congrFun (shapeCast_self v36 _) _) ?_
  refine (mulf_apply _ _ _).trans ?_
  refine congrArg₂ (· * ·) ?_ (pay6_apply v0 r u)
  refine (addf_apply _ _ _).trans ?_
  exact congrArg₂ (· + ·) (pay5_apply v0 r u) rfl

/-- The head's output at (r, n): the normalised, scaled and shifted row against column n of the folded weight,
    plus the n-th head bias. -/
private theorem pay7_apply (v21 v25 : Vec Ideal S256x1 .f32) (v29 : Vec Ideal S512x128 .f32) (v32 : Vec Ideal S1x128 .f32)
    (r : Fin 256) (n : Fin 128) :
    k0_pay7 (F := Ideal) v0 v21 v25 v29 v32 (ix2 r n)
      = (∑ s : Fin 512, (((v0 (ix2 r s) - Cert.Rose.mean (fun s => v0 (ix2 r s))) * Cert.Rose.istd (fun s => v0 (ix2 r s)))
            * v21 (ix2 r (0 : Fin 1)) + v25 (ix2 r (0 : Fin 1))) * v29 (ix2 s n))
          + v32 (ix2 (0 : Fin 1) n) := by
  unfold k0_pay7
  refine (addf_apply _ _ _).trans ?_
  refine congrArg₂ (· + ·) ?_ ?_
  · refine (PlainDot.matmul_zero_apply dot_plain none _ _ r n).trans ?_
    refine Finset.sum_congr rfl fun s _ => ?_
    refine congrArg₂ (· * ·) ?_ (congrFun (shapeCast_self v29 _) _)
    refine (addf_apply _ _ _).trans ?_
    refine congrArg₂ (· + ·) ?_ ?_
    · refine (mulf_apply _ _ _).trans ?_
      refine congrArg₂ (· * ·) ?_ ?_
      · refine (mulf_apply _ _ _).trans ?_
        exact congrArg₂ (· * ·) (pay4_apply v0 r s) ((broadcastTo_a1_ab_apply _ _ r s).trans (pay6_apply v0 r 0))
      · exact (broadcastTo_a1_ab_apply _ _ r s).trans (congrFun (shapeCast_self v21 _) _)
    · exact (broadcastTo_a1_ab_apply _ _ r s).trans (congrFun (shapeCast_self v25 _) _)
  · exact (broadcastTo_1b_ab_apply _ _ r n).trans (congrFun (shapeCast_self v32 _) _)

end Payloads

/-- The stored value from the four values it reads: (head output less the bias) times the scale, plus the mean. -/
private theorem pay1_apply (v5 : FVec Ideal S256x1 .f32) (v35 : FVec Ideal S256x128 .f32) (v38 : FVec Ideal S256x1 .f32)
    (v39 : Vec Ideal S256x1 .f32) (r : Fin 256) (n : Fin 128) :
    k0_pay1 (F := Ideal) v5 v35 v38 v39 (ix2 r n)
      = (v35 (ix2 r n) - v39 (ix2 r (0 : Fin 1))) * v38 (ix2 r (0 : Fin 1)) + v5 (ix2 r (0 : Fin 1)) := by
  unfold k0_pay1
  refine (addf_apply _ _ _).trans ?_
  refine congrArg₂ (· + ·) ?_ (broadcastTo_a1_ab_apply _ _ r n)
  refine (mulf_apply _ _ _).trans ?_
  refine congrArg₂ (· * ·) ?_ (broadcastTo_a1_ab_apply _ _ r n)
  refine (subf_apply _ _ _).trans ?_
  refine congrArg₂ (· - ·) rfl ?_
  refine (broadcastTo_a1_ab_apply _ _ r n).trans ?_
  exact congrFun (shapeCast_self v39 _) _

/-- The body's one stored value, read at (r, n). The loads: v0 the rows' series, vw / vb / viw the rows' weight, bias
    (loaded twice by the body) and reciprocal, v29 the folded weight [512, 128], v32 the head bias [1, 128]. -/
theorem pay_apply (v0 : Vec Ideal S256x512 .f32) (vw vb viw : Vec Ideal S256x1 .f32) (v29 : Vec Ideal S512x128 .f32)
    (v32 : Vec Ideal S1x128 .f32) (r : Fin 256) (n : Fin 128) :
    k0_pay1 (F := Ideal) (k0_pay3 v0) (k0_pay7 v0 vw vb v29 v32) (k0_pay8 v0 viw) vb (ix2 r n)
      = Cert.Rose.refVal (fun s => v0 (ix2 r s)) (vw (ix2 r (0 : Fin 1))) (vb (ix2 r (0 : Fin 1))) (viw (ix2 r (0 : Fin 1)))
          (fun s => v29 (ix2 s n)) (v32 (ix2 (0 : Fin 1) n)) := by
  refine (pay1_apply _ _ _ _ r n).trans ?_
  rw [pay7_apply, pay8_apply, pay3_apply]
  rfl

end Cert.ReferenceIdeal.RoseR

end
-- ==== Proof.RHost.lean ====
/-
  What the reference's wrapper hands its call, entry by entry, on the rows that hold data: row 321 bb + k is the
  series of batch entry bb and channel k (the input transposed to channel-major and flattened), with that channel's
  weight, bias and reciprocal of (weight + ε²) tiled alongside; the padded head bias is a row.

  Each array is first written as the composition of layout operations (transpose, reshape, broadcast, pad) and
  pointwise arithmetic that produces it from the argument arrays; that composition is then read at one index, one
  operation at a time, outermost first. The only arithmetic is on row numbers: row 321 bb + k of the flattened
  [64, 321] grid is position (bb, k), and it lies among the first 20544 rows, which the padding leaves untouched.
-/
import proofs.«155378_g2000605969816161_pallasbulk_1287_4_alg».proof.Proof.Gen.ReferenceIdeal.Frame
import proofs.«155378_g2000605969816161_pallasbulk_1287_4_alg».proof.Proof.RArgs
import Idealize.ShloMosaic.Lib.Pipeline.Value
import Idealize.ShloMosaic.Lib.ValueLayout
import Idealize.ShloMosaic.Lib.KernelVsHost
import Idealize.ShloMosaic.Lib.StableHlo.Run
import Idealize.ShloMosaic.PureOps.Ideal.Laws

noncomputable section

namespace Cert.ReferenceIdeal.RoseR

open Idealize.ShloMosaic Idealize.ShloMosaic.TcCoe Idealize.ShloMosaic.ValueIdx Idealize.SL.Sem
open Cert.ReferenceIdeal Cert.ReferenceIdeal.Gen
open scoped BigOperators

/-! ## The layout operations read at an index -/

section Reads
variable {α : Type}

/-- Rows appended below a two-dimensional array leave the rows above them as they were. -/
private theorem read_padRows {R R' C : ℕ} (Y : (⟨2, ![R, C]⟩ : Shape).Idx → α)
    (hP : (⟨2, ![R, C]⟩ : Shape).Pads (![0, 0] : Fin 2 → Nat) ![192, 0] ![0, 0] ⟨2, ![R', C]⟩)
    {u : Shape} (v : u.Idx → α) (hu : 0 < u.numel)
    (r : Fin R') (r' : Fin R) (hr : r.val = r'.val) (z : Fin C) :
    pad ⟨2, ![R', C]⟩ ![0, 0] ![192, 0] ![0, 0] Y v hP hu (ix2 r z) = Y (ix2 r' z) := by
  refine pad_apply_of_inside _ _ _ Y v hP hu (ix2 r z) (ix2 r' z) (fun a => ?_)
  match a with
  | ⟨0, _⟩ => show r.val = 0 + r'.val * (0 + 1); omega
  | ⟨1, _⟩ => show z.val = 0 + z.val * (0 + 1); omega

/-- The series array [64, 512, 321] transposed to [64, 321, 512] and flattened to rows: row 321 bb + k, column s
    is entry (bb, s, k). -/
private theorem read_rows (X : (⟨3, ![64, 512, 321]⟩ : Shape).Idx → α)
    (hT : (⟨3, ![64, 512, 321]⟩ : Shape).Transposes [0, 2, 1] ⟨3, ![64, 321, 512]⟩)
    (hC : (⟨3, ![64, 321, 512]⟩ : Shape).ShapeCasts ⟨2, ![20544, 512]⟩)
    (bb : Fin 64) (k : Fin 321) (s : Fin 512) (r : Fin 20544) (hr : r.val = 321 * bb.val + k.val) :
    shapeCast ⟨2, ![20544, 512]⟩ (transpose ⟨3, ![64, 321, 512]⟩ [0, 2, 1] X hT) hC (ix2 r s) = X (ix3 bb s k) := by
  refine (shapeCast_apply _ hC (ix2 r s) (ix3 bb k s) ?_).trans ?_
  · rw [Shape.rowMajor_val_three, Shape.rowMajor_val_two]
    show (bb.val * 321 + k.val) * 512 + s.val = r.val * 512 + s.val
    omega
  exact transpose_ix3_021_apply X hT bb k s

/-- A per-channel vector [321] tiled over the 64 batch entries and flattened to a column: row 321 bb + k holds
    channel k's entry. -/
private theorem read_tile (W : (⟨1, ![321]⟩ : Shape).Idx → α)
    (h1 : (⟨1, ![321]⟩ : Shape).ShapeCasts ⟨2, ![1, 321]⟩)
    (hB : (⟨2, ![1, 321]⟩ : Shape).BroadcastsInDim ⟨2, ![64, 321]⟩ (![0, 1] : Fin 2 → Fin 2))
    (h2 : (⟨2, ![64, 321]⟩ : Shape).ShapeCasts ⟨1, ![20544]⟩)
    (h3 : (⟨1, ![20544]⟩ : Shape).ShapeCasts ⟨2, ![20544, 1]⟩)
    (bb : Fin 64) (k : Fin 321) (r : Fin 20544) (hr : r.val = 321 * bb.val + k.val) (z : Fin 1) :
    shapeCast ⟨2, ![20544, 1]⟩ (shapeCast ⟨1, ![20544]⟩
        (broadcastInDim ⟨2, ![64, 321]⟩ ![0, 1] hB (shapeCast ⟨2, ![1, 321]⟩ W h1)) h2) h3 (ix2 r z)
      = W (ix1 k) := by
  refine (shapeCast_apply _ h3 (ix2 r z) (ix1 r) ?_).trans ?_
  · rw [Shape.rowMajor_val_one, Shape.rowMajor_val_two]
    show r.val = r.val * 1 + z.val
    have := z.isLt; omega
  refine (shapeCast_apply _ h2 (ix1 r) (ix2 bb k) ?_).trans ?_
  · rw [Shape.rowMajor_val_two, Shape.rowMajor_val_one]
    show bb.val * 321 + k.val = r.val
    omega
  refine (broadcastInDim_apply _ hB _ (ix2 bb k) (ix2 (0 : Fin 1) k) (fun a => ?_)).trans ?_
  · match a with
    | ⟨0, _⟩ => rfl
    | ⟨1, _⟩ => rfl
  exact shapeCast_a_1a_apply W h1 0 k

end Reads

/-- The reciprocal of (column + ε²), entry by entry: the quotient of the broadcast 1 by the sum of the column and
    the broadcast ε². -/
private theorem read_recip (Y : (⟨2, ![20544, 1]⟩ : Shape).Idx → EReal)
    (hB : (⟨0, ![]⟩ : Shape).BroadcastsInDim ⟨2, ![20544, 1]⟩ (![] : Fin 0 → Fin 2))
    (j : (⟨2, ![20544, 1]⟩ : Shape).Idx) :
    Host.divf (F := Ideal) (φ := .f32)
        (broadcastInDim ⟨2, ![20544, 1]⟩ ![] hB (constant (F := Ideal) ⟨0, ![]⟩ .f32 0x3F800000#32))
        (addf (F := Ideal) (φ := .f32) Y
          (broadcastInDim ⟨2, ![20544, 1]⟩ ![] hB (constant (F := Ideal) ⟨0, ![]⟩ .f32 0x2EDBE6FF#32))) j
      = Cert.Rose.invw (Y j) := rfl

/-- The head bias [96] padded with 32 zeros and laid out as one row. -/
private theorem read_hb (HB : (⟨1, ![96]⟩ : Shape).Idx → EReal)
    (hP : (⟨1, ![96]⟩ : Shape).Pads (![0] : Fin 1 → Nat) ![32] ![0] ⟨1, ![128]⟩)
    (hu : 0 < (⟨0, ![]⟩ : Shape).numel)
    (hC : (⟨1, ![128]⟩ : Shape).ShapeCasts ⟨2, ![1, 128]⟩) (n : Fin 128) :
    shapeCast ⟨2, ![1, 128]⟩
        (pad ⟨1, ![128]⟩ ![0] ![32] ![0] HB (sitofp (F := Ideal) .f32 (constantI ⟨0, ![]⟩ 32 0#32)) hP hu) hC
        (ix2 (0 : Fin 1) n)
      = Cert.Rose.hbpad HB n := by
  refine (shapeCast_a_1a_apply _ hC 0 n).trans ?_
  unfold Cert.Rose.hbpad
  by_cases h : n.val < 96
  · rw [dif_pos h]
    refine pad_apply_of_inside _ _ _ HB _ hP hu (ix1 n) (ix1 ⟨n.val, h⟩) (fun a => ?_)
    match a with
    | ⟨0, _⟩ => show n.val = 0 + n.val * (0 + 1); omega
  · rw [dif_neg h]
    refine (pad_apply_of_not_inside _ _ _ HB _ hP hu (ix1 n) ⟨0, Nat.one_pos⟩ ?_).trans ?_
    · show ¬(0 ≤ n.val ∧ (n.val - 0) % (0 + 1) = 0 ∧ (n.val - 0) / (0 + 1) < 96)
      omega
    · -- the padding value is the integer 0 converted, which is the real 0
      show ((((0#32 : BitVec 32).toInt : ℤ) : ℝ) : EReal) = 0
      simp

/-- Row 321 bb + k as one of the 20544 data rows. -/
private def drow (bb : Fin 64) (k : Fin 321) : Fin 20544 :=
  ⟨321 * bb.val + k.val, by have := bb.isLt; have := k.isLt; omega⟩

/-! ## The five arrays as compositions of the argument arrays -/

variable (m : (ℓ : Loc nD τ sig) → Buf (Elt Ideal) ℓ) (c : Dev nD)

/-- A per-channel vector tiled to a [20544, 1] column: reshape to a row, copy it 64 times, flatten, reshape. -/
private abbrev tileCol (W : S321.Idx → EReal) : S20544x1.Idx → EReal :=
  shapeCast S20544x1 (shapeCast S20544
    (broadcastInDim S64x321 ![0, 1] Gen.bcast_S1x321_S64x321_0_1 (shapeCast S1x321 W Gen.shapeCasts_S321_S1x321))
    Gen.shapeCasts_S64x321_S20544) Gen.shapeCasts_S20544_S20544x1

private theorem e_x : (Gen.V m c main_v2 : S20736x512.Idx → EReal)
    = pad S20736x512 ![0, 0] ![192, 0] ![0, 0]
        (shapeCast S20544x512
          (transpose S64x321x512 [0, 2, 1] (aX m c : S64x512x321.Idx → EReal) Gen.transposes_S64x512x321_S64x321x512_0_2_1)
          Gen.shapeCasts_S64x321x512_S20544x512)
        (sitofp (F := Ideal) .f32 (constantI S_ 32 0#32))
        Gen.pads_S20544x512_S20736x512_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results <;> rfl

private theorem e_w : (Gen.V m c main_v15 : S20736x1.Idx → EReal)
    = pad S20736x1 ![0, 0] ![192, 0] ![0, 0] (tileCol (aW m c : S321.Idx → EReal))
        (constant (F := Ideal) S_ .f32 0x3F800000#32)
        Gen.pads_S20544x1_S20736x1_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results <;> rfl

private theorem e_b : (Gen.V m c main_v16 : S20736x1.Idx → EReal)
    = pad S20736x1 ![0, 0] ![192, 0] ![0, 0] (tileCol (aB m c : S321.Idx → EReal))
        (sitofp (F := Ideal) .f32 (constantI S_ 32 0#32))
        Gen.pads_S20544x1_S20736x1_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results <;> rfl

private theorem e_iw : (Gen.V m c main_v17 : S20736x1.Idx → EReal)
    = pad S20736x1 ![0, 0] ![192, 0] ![0, 0]
        (Host.divf (F := Ideal) (φ := .f32)
          (broadcastInDim S20544x1 ![] Gen.bcast_S_S20544x1 (constant (F := Ideal) S_ .f32 0x3F800000#32))
          (addf (F := Ideal) (φ := .f32) (tileCol (aW m c : S321.Idx → EReal))
            (broadcastInDim S20544x1 ![] Gen.bcast_S_S20544x1 (constant (F := Ideal) S_ .f32 0x2EDBE6FF#32))))
        (constant (F := Ideal) S_ .f32 0x3F800000#32)
        Gen.pads_S20544x1_S20736x1_01920_000 Gen.h_S_ := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results <;> rfl

private theorem e_hb : (Gen.V m c main_v20 : S1x128.Idx → EReal)
    = shapeCast S1x128
        (pad S128 ![0] ![32] ![0] (aHB m c : S96.Idx → EReal) (sitofp (F := Ideal) .f32 (constantI S_ 32 0#32))
          Gen.pads_S96_S128_0320 Gen.h_S_)
        Gen.shapeCasts_S128_S1x128 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12,
    List.flatten_cons, List.flatten_nil, List.append_nil, List.cons_append, List.nil_append]
  after_results <;> rfl

/-! ## The five arrays at a data row -/

/-- The channel-major series rows. -/
theorem V_x (bb : Fin 64) (k : Fin 321) (s : Fin 512) :
    (Gen.V m c main_v2 : S20736x512.Idx → EReal) (ix2 (Cert.Rose.row bb k) s) = aX m c (ix3 bb s k) := by
  refine (congrFun (e_x m c) _).trans ?_
  refine (read_padRows _ _ _ _ (Cert.Rose.row bb k) (drow bb k) rfl s).trans ?_
  exact read_rows _ _ _ bb k s (drow bb k) rfl

/-- The tiled affine weight. -/
theorem V_w (bb : Fin 64) (k : Fin 321) :
    (Gen.V m c main_v15 : S20736x1.Idx → EReal) (ix2 (Cert.Rose.row bb k) (0 : Fin 1)) = aW m c (ix1 k) := by
  refine (congrFun (e_w m c) _).trans ?_
  refine (read_padRows _ _ _ _ (Cert.Rose.row bb k) (drow bb k) rfl 0).trans ?_
  exact read_tile _ _ _ _ _ bb k (drow bb k) rfl 0

/-- The tiled affine bias. -/
theorem V_b (bb : Fin 64) (k : Fin 321) :
    (Gen.V m c main_v16 : S20736x1.Idx → EReal) (ix2 (Cert.Rose.row bb k) (0 : Fin 1)) = aB m c (ix1 k) := by
  refine (congrFun (e_b m c) _).trans ?_
  refine (read_padRows _ _ _ _ (Cert.Rose.row bb k) (drow bb k) rfl 0).trans ?_
  exact read_tile _ _ _ _ _ bb k (drow bb k) rfl 0

/-- The tiled reciprocal. -/
theorem V_iw (bb : Fin 64) (k : Fin 321) :
    (Gen.V m c main_v17 : S20736x1.Idx → EReal) (ix2 (Cert.Rose.row bb k) (0 : Fin 1)) = Cert.Rose.invw (aW m c (ix1 k)) := by
  refine (congrFun (e_iw m c) _).trans ?_
  refine (read_padRows _ _ _ _ (Cert.Rose.row bb k) (drow bb k) rfl 0).trans ?_
  refine (read_recip _ _ _).trans ?_
  exact congrArg Cert.Rose.invw (read_tile _ _ _ _ _ bb k (drow bb k) rfl 0)

/-- The padded head bias as a row. -/
theorem V_hb (n : Fin 128) :
    (Gen.V m c main_v20 : S1x128.Idx → EReal) (ix2 (0 : Fin 1) n) = Cert.Rose.hbpad (aHB m c) n := by
  refine (congrFun (e_hb m c) _).trans ?_
  exact read_hb _ _ _ _ n

end Cert.ReferenceIdeal.RoseR

end
-- ==== Proof.RoseScatter.lean ====
/-
  An accumulating scatter of the rows of a [1008, 128] update into a [512, 128] array, row p added at the row its
  index names, read at an entry (s, n): the entry plus the sum, over the update rows p whose index is s, of the
  update's entry (p, n). Stated for any dimension-number record of that form and any index column whose p-th entry
  is the time step tpos p.
-/
import Idealize.ShloMosaic.PureOps.Ideal
import Idealize.ShloMosaic.PureOps.Ideal.Laws
import Idealize.ShloMosaic.Lib.ValueIdx
import proofs.«155378_g2000605969816161_pallasbulk_1287_4_alg».proof.Proof.RoseSpec

noncomputable section

namespace Cert.Rose

open Idealize.ShloMosaic Idealize.ShloMosaic.ValueIdx
open scoped BigOperators

/-- The scatter's dimension numbers: update axis 1 is the window (it goes to array axis 1), array axis 0 is the
    inserted one and the one the index vector's single component names, the index vector is axis 1 of the indices. -/
structure IsRowScatter (d : ScatterDims ⟨2, ![512, 128]⟩ ⟨2, ![1008, 1]⟩ ⟨2, ![1008, 128]⟩) : Prop where
  uw : d.updateWindowDims = [1]
  iw : d.insertedWindowDims = [0]
  sd : d.scatterDimsToOperandDims = [0]
  iv : d.indexVectorDim = 1

/-- Every axis of a rank-2 shape is axis 0 or axis 1. -/
private theorem fin2_cases (a : Fin 2) : a = 0 ∨ a = 1 := by
  revert a; decide

/-- Where an update entry lands. For a record of the row-scatter form the update entry (p, q) has start index
    (idx p, 0) and window coordinate (0, q), so it lands at (tpos p, q): always inside the array, since
    tpos p < 512 and q < 128. Hence it lands at (s, n) exactly when tpos p = s and q = n. -/
private theorem resultIdx_iff {d : ScatterDims ⟨2, ![512, 128]⟩ ⟨2, ![1008, 1]⟩ ⟨2, ![1008, 128]⟩} (hd : IsRowScatter d)
    (idx : IVec ⟨2, ![1008, 1]⟩ 32)
    (hidx : ∀ p : Fin 1008, (idx (ix2 p (0 : Fin 1))).toInt = ((tpos p).val : Int))
    (p : Fin 1008) (q : Fin 128) (s : Fin 512) (n : Fin 128) :
    d.resultIdx? (ix2 p q) idx = some (ix2 s n) ↔ tpos p = s ∧ q = n := by
  -- make the record's four lists literal
  obtain ⟨uw, iw, sd, iv, wf⟩ := d
  obtain ⟨h1, h2, h3, h4⟩ := hd
  dsimp only at h1 h2 h3 h4
  subst h1 h2 h3 h4
  -- the scatter-indices entry the update entry (p, q) reads its start from is (p, 0)
  have hsi : ∀ c, ScatterDims.siIdx ⟨[1], [0], [0], 1, wf⟩ (ix2 p q) c = ix2 p (0 : Fin 1) := by
    intro c; funext b
    rcases fin2_cases b with rfl | rfl
    · rfl
    · exact Subsingleton.elim (α := Fin 1) _ _
  -- start index: (tpos p, 0); window coordinate: (0, q)
  have hs0 : ScatterDims.start ⟨[1], [0], [0], 1, wf⟩ (ix2 p q) idx 0 = ((tpos p).val : Int) := by
    have e : ScatterDims.start ⟨[1], [0], [0], 1, wf⟩ (ix2 p q) idx 0
        = (idx (ScatterDims.siIdx ⟨[1], [0], [0], 1, wf⟩ (ix2 p q) ⟨0, Nat.zero_lt_one⟩)).toInt := rfl
    rw [e, hsi, hidx]
  have hs1 : ScatterDims.start ⟨[1], [0], [0], 1, wf⟩ (ix2 p q) idx 1 = 0 := rfl
  have hw0 : ScatterDims.window ⟨[1], [0], [0], 1, wf⟩ (ix2 p q) 0 = 0 := rfl
  have hw1 : ScatterDims.window ⟨[1], [0], [0], 1, wf⟩ (ix2 p q) 1 = q.val := rfl
  -- the landing position is inside the array on both axes
  have hcond : ∀ a, 0 ≤ ScatterDims.start ⟨[1], [0], [0], 1, wf⟩ (ix2 p q) idx a
        + ScatterDims.window ⟨[1], [0], [0], 1, wf⟩ (ix2 p q) a
      ∧ ScatterDims.start ⟨[1], [0], [0], 1, wf⟩ (ix2 p q) idx a
        + ScatterDims.window ⟨[1], [0], [0], 1, wf⟩ (ix2 p q) a < (⟨2, ![512, 128]⟩ : Shape).size a := by
    intro a
    rcases fin2_cases a with rfl | rfl
    · rw [hs0, hw0]
      have := (tpos p).isLt
      refine ⟨by omega, ?_⟩
      show _ < ((512 : Nat) : Int)
      omega
    · rw [hs1, hw1]
      have := q.isLt
      refine ⟨by omega, ?_⟩
      show _ < ((128 : Nat) : Int)
      omega
  have hres : ScatterDims.resultIdx? ⟨[1], [0], [0], 1, wf⟩ (ix2 p q) idx = some (ix2 (tpos p) q) := by
    unfold ScatterDims.resultIdx?
    rw [dif_pos hcond]
    refine congrArg some ?_
    funext a
    rcases fin2_cases a with rfl | rfl
    · apply Fin.ext
      show (ScatterDims.start ⟨[1], [0], [0], 1, wf⟩ (ix2 p q) idx 0
        + (ScatterDims.window ⟨[1], [0], [0], 1, wf⟩ (ix2 p q) 0 : Nat)).toNat = (tpos p).val
      rw [hs0, hw0]; omega
    · apply Fin.ext
      show (ScatterDims.start ⟨[1], [0], [0], 1, wf⟩ (ix2 p q) idx 1
        + (ScatterDims.window ⟨[1], [0], [0], 1, wf⟩ (ix2 p q) 1 : Nat)).toNat = q.val
      rw [hs1, hw1]; omega
  rw [hres]
  constructor
  · intro h
    have h' := Option.some.inj h
    exact ⟨congrFun h' 0, congrFun h' 1⟩
  · rintro ⟨rfl, rfl⟩; rfl

/-- The scatter read at (s, n). -/
theorem scatterAdd_apply {d : ScatterDims ⟨2, ![512, 128]⟩ ⟨2, ![1008, 1]⟩ ⟨2, ![1008, 128]⟩} (hd : IsRowScatter d)
    (x : (⟨2, ![512, 128]⟩ : Shape).Idx → EReal) (idx : IVec ⟨2, ![1008, 1]⟩ 32) (upd : (⟨2, ![1008, 128]⟩ : Shape).Idx → EReal)
    (hidx : ∀ p : Fin 1008, (idx (ix2 p (0 : Fin 1))).toInt = ((tpos p).val : Int)) (s : Fin 512) (n : Fin 128) :
    Ideal.hostScatterAdd d x idx upd (ix2 s n)
      = x (ix2 s n) + ∑ p ∈ Finset.univ.filter (fun p : Fin 1008 => tpos p = s), upd (ix2 p n) := by
  simp only [Ideal.hostScatterAdd]
  refine congrArg (x (ix2 s n) + ·) ?_
  -- both sums as sums of guarded terms; the left one over the two coordinates of the update entry
  rw [Finset.sum_filter, Finset.sum_filter]
  refine (sum_idx2 _).trans ?_
  refine Finset.sum_congr rfl (fun p _ => ?_)
  by_cases hp : tpos p = s
  · -- row p lands on row s: of its entries only (p, n) lands at (s, n)
    rw [if_pos hp, Finset.sum_eq_single n]
    · exact if_pos ((resultIdx_iff hd idx hidx p n s n).2 ⟨hp, rfl⟩)
    · intro q _ hq
      exact if_neg (fun h => hq ((resultIdx_iff hd idx hidx p q s n).1 h).2)
    · intro h; exact absurd (Finset.mem_univ n) h
  · -- row p lands elsewhere: none of its entries lands at (s, n)
    rw [if_neg hp]
    exact Finset.sum_eq_zero (fun q _ => if_neg (fun h => hp ((resultIdx_iff hd idx hidx p q s n).1 h).1))

end Cert.Rose

end
-- ==== Proof.RWeff.lean ====
/-
  The reference's folded weight: head row p = 16 i + j of the padded head weight is added onto time step 8 i + j
  of a zero [512, 128] array; the index column is computed from two iotas.
-/
import proofs.«155378_g2000605969816161_pallasbulk_1287_4_alg».proof.Proof.Gen.ReferenceIdeal.Frame
import proofs.«155378_g2000605969816161_pallasbulk_1287_4_alg».proof.Proof.RArgs
import proofs.«155378_g2000605969816161_pallasbulk_1287_4_alg».proof.Proof.RoseScatter
import Idealize.ShloMosaic.Lib.Pipeline.Value
import Idealize.ShloMosaic.Lib.ValueLayout
import Idealize.ShloMosaic.Lib.KernelVsHost
import Idealize.ShloMosaic.Lib.StableHlo.Run
import Idealize.ShloMosaic.Lib.StableHlo.Predicate
import Idealize.ShloMosaic.PureOps.Ideal.Laws

noncomputable section

namespace Cert.ReferenceIdeal.RoseR

open Idealize.ShloMosaic Idealize.ShloMosaic.TcCoe Idealize.ShloMosaic.ValueIdx Idealize.SL.Sem
open Cert.ReferenceIdeal Cert.ReferenceIdeal.Gen
open scoped BigOperators

variable (m : (ℓ : Loc nD τ sig) → Buf (Elt Ideal) ℓ) (c : Dev nD)

/-! ## The index column -/

/-- 0 + i·8 + j on 32-bit words is the word of 8 i + j. -/
theorem word_eq (i j : Nat) :
    IntOp.addi (IntOp.addi 0#32 (IntOp.muli (BitVec.ofNat 32 i) 8#32)) (BitVec.ofNat 32 j) = BitVec.ofNat 32 (8 * i + j) := by
  unfold IntOp.addi IntOp.muli
  apply BitVec.eq_of_toNat_eq
  simp only [BitVec.toNat_add, BitVec.toNat_mul, BitVec.toNat_ofNat]
  omega

/-- The patch starts 0, 8, 16, … as a [63, 1] column of words: 0 + (patch number) · 8. -/
def colA : IVec S63x1 32 :=
  addi (broadcastInDim S63x1 ![] bcast_S_S63x1 (constantI S_ 32 0#32))
    (muli (broadcastInDim S63x1 ![0] bcast_S63_S63x1_0 (iotaInDim S63 32 0))
      (broadcastInDim S63x1 ![] bcast_S_S63x1 (constantI S_ 32 8#32)))

/-- The offsets 0 … 15 inside a patch as a [1, 16] row of words. -/
def rowB : IVec S1x16 32 := broadcastInDim S1x16 ![1] bcast_S16_S1x16_1 (iotaInDim S16 32 0)

/-- The time step every head row reads, before the wrap of negative indices: the [63, 16] table
    start + offset, flattened to 1008 entries. -/
def idx32 : IVec S1008 32 :=
  shapeCast S1008
    (addi (broadcastInDim S63x16 ![0, 1] bcast_S63x1_S63x16_0_1 colA)
      (broadcastInDim S63x16 ![0, 1] bcast_S1x16_S63x16_0_1 rowB))
    shapeCasts_S63x16_S1008

/-- The index column handed to the scatter: a negative entry is moved up by 512, and the vector is made a column. -/
def idxCol : IVec S1008x1 32 :=
  broadcastInDim S1008x1 ![0] bcast_S1008_S1008x1_0
    (select (cmpi .slt idx32 (broadcastInDim S1008 ![] bcast_S_S1008 (constantI S_ 32 0#32)))
      (addi idx32 (broadcastInDim S1008 ![] bcast_S_S1008 (constantI S_ 32 512#32)))
      idx32)

theorem colA_apply (i : Fin 63) :
    colA (StableHlo.Predicate.ixP i) = IntOp.addi 0#32 (IntOp.muli (BitVec.ofNat 32 i.val) 8#32) := by
  show IntOp.addi 0#32 (IntOp.muli
    (broadcastInDim S63x1 ![0] bcast_S63_S63x1_0 (iotaInDim S63 32 0) (StableHlo.Predicate.ixP i)) 8#32) = _
  rw [StableHlo.Predicate.bcast_col1 bcast_S63_S63x1_0 (iotaInDim S63 32 0) i]
  rfl

theorem rowB_apply (j : Fin 16) : rowB (StableHlo.Predicate.i1q j) = BitVec.ofNat 32 j.val :=
  (StableHlo.Predicate.bcast_row1 bcast_S16_S1x16_1 (iotaInDim S16 32 0) j).trans rfl

/-- Entry 16 i + j of the flattened table is the word of 8 i + j. -/
theorem idx32_apply (i : Fin 63) (j : Fin 16) (p : Fin 1008) (hp : p.val = 16 * i.val + j.val) :
    idx32 (Shape.Idx.ofFin p) = BitVec.ofNat 32 (8 * i.val + j.val) := by
  unfold idx32
  rw [shapeCast_apply _ _ _ (StableHlo.Predicate.ij i j) (by
    rw [Shape.rowMajor_val_two, Shape.rowMajor_val_one]
    show i.val * 16 + j.val = p.val
    omega)]
  show IntOp.addi (broadcastInDim S63x16 ![0, 1] bcast_S63x1_S63x16_0_1 colA (StableHlo.Predicate.ij i j))
      (broadcastInDim S63x16 ![0, 1] bcast_S1x16_S63x16_0_1 rowB (StableHlo.Predicate.ij i j)) = _
  rw [StableHlo.Predicate.bcast_of_col bcast_S63x1_S63x16_0_1 colA i j,
    StableHlo.Predicate.bcast_of_row bcast_S1x16_S63x16_0_1 rowB i j, colA_apply, rowB_apply]
  exact word_eq i.val j.val

/-- No entry is negative, so the wrap leaves it: row p of the column is the word of the time step p reads. -/
theorem idxCol_apply (p : Fin 1008) :
    (idxCol (ix2 p (0 : Fin 1))).toInt = ((Cert.Rose.tpos p).val : Int) := by
  have e : (ix2 p (0 : Fin 1) : S1008x1.Idx) = StableHlo.Predicate.ixP p := by
    funext a; match a with | ⟨0, _⟩ => rfl | ⟨1, _⟩ => rfl
  have hlt := p.isLt
  have hw := idx32_apply ⟨p.val / 16, by omega⟩ ⟨p.val % 16, by omega⟩ p (by show p.val = 16 * (p.val / 16) + p.val % 16; omega)
  have hneg : IntOp.cmpi .slt (BitVec.ofNat 32 (8 * (p.val / 16) + p.val % 16)) 0#32 = 0#1 :=
    eq_zero_of_ne_one fun h =>
      Nat.not_lt_zero _ ((StableHlo.Predicate.slt_ofNat_iff (8 * (p.val / 16) + p.val % 16) 0 (by omega) (by omega)).mp h)
  rw [e]
  unfold idxCol
  rw [StableHlo.Predicate.bcast_col1]
  show (Scalar.select (IntOp.cmpi .slt (idx32 (Shape.Idx.ofFin p)) 0#32)
    (IntOp.addi (idx32 (Shape.Idx.ofFin p)) 512#32) (idx32 (Shape.Idx.ofFin p))).toInt = _
  rw [hw, hneg, select_zero]
  exact (StableHlo.Predicate.toInt_ofNat_small _ (by omega)).trans rfl

/-! ## The padded head weight and the zero array -/

/-- The head weight padded with 32 columns of the converted integer 0, read at (p, n). -/
theorem padw_apply (hw : S1008x96.Idx → EReal) (p : Fin 1008) (n : Fin 128) :
    pad S1008x128 ![0, 0] ![0, 32] ![0, 0] hw (sitofp (F := Ideal) .f32 (constantI S_ 32 0#32))
        pads_S1008x96_S1008x128_000_0320 h_S_ (ix2 p n)
      = Cert.Rose.hwpad hw p n := by
  unfold Cert.Rose.hwpad
  by_cases hn : n.val < 96
  · rw [dif_pos hn]
    refine pad_apply_of_inside _ _ _ hw _ _ _ (ix2 p n) (ix2 p ⟨n.val, hn⟩) (fun a => ?_)
    match a with
    | ⟨0, _⟩ => show p.val = 0 + p.val * (0 + 1); omega
    | ⟨1, _⟩ => show n.val = 0 + n.val * (0 + 1); omega
  · rw [dif_neg hn]
    refine (pad_apply_of_not_inside _ _ _ hw _ _ _ (ix2 p n) (1 : Fin 2) (fun h => hn ?_)).trans ?_
    · have h3 := h.2.2
      change (n.val - 0) / (0 + 1) < 96 at h3
      omega
    · show (((0#32 : BitVec 32).toInt : ℝ) : EReal) = 0
      simp

/-- The array the scatter adds onto is zero everywhere. -/
theorem zeros_apply (s : Fin 512) (n : Fin 128) :
    broadcastInDim S512x128 ![] bcast_S_S512x128 (constant (F := Ideal) S_ .f32 0x00000000#32) (ix2 s n) = 0 :=
  Ideal.ofBits_zero_f32

/-! ## The folded weight -/

theorem isRowScatter : Cert.Rose.IsRowScatter scatter_S512x128_S1008x1_S1008x128_1_0_0_1 := ⟨rfl, rfl, rfl, rfl⟩

set_option maxHeartbeats 1600000 in
/-- The folded weight array as the composed term of the program's lines. -/
theorem V_v40_term :
    (Gen.V m c main_v40 : S512x128.Idx → EReal)
      = Host.scatterAdd scatter_S512x128_S1008x1_S1008x128_1_0_0_1
          (broadcastInDim S512x128 ![] bcast_S_S512x128 (constant (F := Ideal) S_ .f32 0x00000000#32))
          idxCol
          (pad S1008x128 ![0, 0] ![0, 32] ![0, 0] (aHW m c) (sitofp (F := Ideal) .f32 (constantI S_ 32 0#32))
            pads_S1008x96_S1008x128_000_0320 h_S_) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12,
    List.flatten_cons, List.flatten_nil, List.append_nil, List.cons_append, List.nil_append]
  after_results_simp
  rfl

/-- The folded weight at (s, n). -/
theorem V_weff (s : Fin 512) (n : Fin 128) :
    (Gen.V m c main_v40 : S512x128.Idx → EReal) (ix2 s n) = Cert.Rose.weffR (aHW m c) s n := by
  refine (congrFun (V_v40_term m c) (ix2 s n)).trans ?_
  refine (Cert.Rose.scatterAdd_apply isRowScatter _ idxCol _ idxCol_apply s n).trans ?_
  rw [zeros_apply, zero_add]
  unfold Cert.Rose.weffR
  exact Finset.sum_congr rfl fun p _ => padw_apply (aHW m c) p n

end Cert.ReferenceIdeal.RoseR

end
-- ==== Proof.RValue.lean ====
/-
  The reference program's run with its results named: grid point t writes rows 256 t … 256 t + 255 of the [20736, 128]
  array, each entry the value `refVal` of its row's series; the 81 blocks tile the array; the wrapper then keeps rows
  below 20544 and columns below 96 and returns entry (321 bb + k, n) at (bb, n, k); the two scalar results are zero.
-/
import proofs.«155378_g2000605969816161_pallasbulk_1287_4_alg».proof.Proof.Gen.ReferenceIdeal.Frame
import proofs.«155378_g2000605969816161_pallasbulk_1287_4_alg».proof.Proof.RArgs
import proofs.«155378_g2000605969816161_pallasbulk_1287_4_alg».proof.Proof.RPayload
import proofs.«155378_g2000605969816161_pallasbulk_1287_4_alg».proof.Proof.RHost
import proofs.«155378_g2000605969816161_pallasbulk_1287_4_alg».proof.Proof.RWeff
import Idealize.ShloMosaic.Lib.Pipeline.Value
import Idealize.ShloMosaic.Lib.ValueLayout
import Idealize.ShloMosaic.Lib.StableHlo.Run

noncomputable section

namespace Cert.ReferenceIdeal.RoseR

open Idealize.ShloMosaic Idealize.ShloMosaic.TcCoe Idealize.ShloMosaic.ValueIdx Idealize.SL.Sem
open Cert.ReferenceIdeal Cert.ReferenceIdeal.Gen
open scoped BigOperators

variable (m : (ℓ : Loc nD τ sig) → Buf (Elt Ideal) ℓ)

/-! ## The value of one row, and its congruence -/

/-- `refVal` takes equal arguments to equal values (the series and the weight column compared entry by entry). -/
theorem refVal_congr {X X' : Fin 512 → EReal} {w w' b b' iw iw' : EReal} {Wn Wn' : Fin 512 → EReal} {h h' : EReal}
    (hX : ∀ s, X s = X' s) (hw : w = w') (hb : b = b') (hiw : iw = iw') (hW : ∀ s, Wn s = Wn' s) (hh : h = h') :
    Cert.Rose.refVal X w b iw Wn h = Cert.Rose.refVal X' w' b' iw' Wn' h' := by
  obtain rfl : X = X' := funext hX
  obtain rfl : Wn = Wn' := funext hW
  subst hw hb hiw hh
  rfl

/-- What the call's output array ends holding, over ALL 20736 rows (padding rows included) and all 128 columns:
    entry (R, n) is `refVal` of row R of the series array with row R of the three parameter columns, column n of the
    folded weight and entry n of the head-bias row, all as the call finds them. -/
abbrev rowsVal (c : Dev nD) : S20736x128.Idx → EReal := fun j =>
  Cert.Rose.refVal (fun s => (Gen.V m c main_v2 : S20736x512.Idx → EReal) (ix2 (j 0) s))
    ((Gen.V m c main_v15 : S20736x1.Idx → EReal) (ix2 (j 0) (0 : Fin 1)))
    ((Gen.V m c main_v16 : S20736x1.Idx → EReal) (ix2 (j 0) (0 : Fin 1)))
    ((Gen.V m c main_v17 : S20736x1.Idx → EReal) (ix2 (j 0) (0 : Fin 1)))
    (fun s => (Gen.V m c main_v40 : S512x128.Idx → EReal) (ix2 s (j 1)))
    ((Gen.V m c main_v20 : S1x128.Idx → EReal) (ix2 (0 : Fin 1) (j 1)))

/-! ## The block index maps, decided over the 81 grid points -/

/-- The zero offsets of the body's whole-buffer loads and store. -/
theorem zeroOff : (![0, 0] : Fin 2 → Nat) = fun _ => 0 :=
  funext fun a => match a with | ⟨0, _⟩ => rfl | ⟨1, _⟩ => rfl

/-- Grid point t writes output block (t, 0). -/
theorem idx_out : ∀ t : Fin cfg0.N, win0_6.index t (0 : Fin 2) = t.val ∧ win0_6.index t (1 : Fin 2) = 0 :=
  (by decide +kernel : ∀ t : Fin grid0.N, _)
/-- It reads block (t, 0) of the series rows, -/
theorem idx_x : ∀ t : Fin cfg0.N, win0_0.index t (0 : Fin 2) = t.val ∧ win0_0.index t (1 : Fin 2) = 0 :=
  (by decide +kernel : ∀ t : Fin grid0.N, _)
/-- of the weight column, -/
theorem idx_w : ∀ t : Fin cfg0.N, win0_1.index t (0 : Fin 2) = t.val ∧ win0_1.index t (1 : Fin 2) = 0 :=
  (by decide +kernel : ∀ t : Fin grid0.N, _)
/-- of the bias column, -/
theorem idx_b : ∀ t : Fin cfg0.N, win0_2.index t (0 : Fin 2) = t.val ∧ win0_2.index t (1 : Fin 2) = 0 :=
  (by decide +kernel : ∀ t : Fin grid0.N, _)
/-- and of the reciprocal column; -/
theorem idx_iw : ∀ t : Fin cfg0.N, win0_3.index t (0 : Fin 2) = t.val ∧ win0_3.index t (1 : Fin 2) = 0 :=
  (by decide +kernel : ∀ t : Fin grid0.N, _)
/-- the folded weight -/
theorem idx_weff : ∀ t : Fin cfg0.N, win0_4.index t (0 : Fin 2) = 0 ∧ win0_4.index t (1 : Fin 2) = 0 :=
  (by decide +kernel : ∀ t : Fin grid0.N, _)
/-- and the head-bias row are whole at every point. -/
theorem idx_hb : ∀ t : Fin cfg0.N, win0_5.index t (0 : Fin 2) = 0 ∧ win0_5.index t (1 : Fin 2) = 0 :=
  (by decide +kernel : ∀ t : Fin grid0.N, _)

/-! ## Each input block read where the output's rows lie: row r of block t is row 256 t + r of the array -/

theorem rd_x (c : Dev nD) (t : Fin cfg0.N) (r : Fin 256) (s : Fin 512) (R : Fin 20736) (hR : R.val = t.val * 256 + r.val) :
    (iblk m c 0 t : S256x512.Idx → EReal) (ix2 r s) = (Gen.V m c main_v2 : S20736x512.Idx → EReal) (ix2 R s) := by
  obtain ⟨e0, e1⟩ := idx_x t
  show (Gen.V m c main_v2 : S20736x512.Idx → EReal) (((cfg0.win 0).blk t).view.emb (ix2 r s)) = _
  refine congrArg (Gen.V m c main_v2 : S20736x512.Idx → EReal) (funext fun a => Fin.ext ?_)
  match a with
  | ⟨0, _⟩ => show win0_0.index t (0 : Fin 2) * 256 + 1 * r.val = R.val; omega
  | ⟨1, _⟩ => show win0_0.index t (1 : Fin 2) * 512 + 1 * s.val = s.val; omega

theorem rd_w (c : Dev nD) (t : Fin cfg0.N) (r : Fin 256) (R : Fin 20736) (hR : R.val = t.val * 256 + r.val) :
    (iblk m c 1 t : S256x1.Idx → EReal) (ix2 r (0 : Fin 1)) = (Gen.V m c main_v15 : S20736x1.Idx → EReal) (ix2 R (0 : Fin 1)) := by
  obtain ⟨e0, e1⟩ := idx_w t
  show (Gen.V m c main_v15 : S20736x1.Idx → EReal) (((cfg0.win 1).blk t).view.emb (ix2 r (0 : Fin 1))) = _
  refine congrArg (Gen.V m c main_v15 : S20736x1.Idx → EReal) (funext fun a => Fin.ext ?_)
  match a with
  | ⟨0, _⟩ => show win0_1.index t (0 : Fin 2) * 256 + 1 * r.val = R.val; omega
  | ⟨1, _⟩ => show win0_1.index t (1 : Fin 2) * 1 + 1 * 0 = 0; omega

theorem rd_b (c : Dev nD) (t : Fin cfg0.N) (r : Fin 256) (R : Fin 20736) (hR : R.val = t.val * 256 + r.val) :
    (iblk m c 2 t : S256x1.Idx → EReal) (ix2 r (0 : Fin 1)) = (Gen.V m c main_v16 : S20736x1.Idx → EReal) (ix2 R (0 : Fin 1)) := by
  obtain ⟨e0, e1⟩ := idx_b t
  show (Gen.V m c main_v16 : S20736x1.Idx → EReal) (((cfg0.win 2).blk t).view.emb (ix2 r (0 : Fin 1))) = _
  refine congrArg (Gen.V m c main_v16 : S20736x1.Idx → EReal) (funext fun a => Fin.ext ?_)
  match a with
  | ⟨0, _⟩ => show win0_2.index t (0 : Fin 2) * 256 + 1 * r.val = R.val; omega
  | ⟨1, _⟩ => show win0_2.index t (1 : Fin 2) * 1 + 1 * 0 = 0; omega

theorem rd_iw (c : Dev nD) (t : Fin cfg0.N) (r : Fin 256) (R : Fin 20736) (hR : R.val = t.val * 256 + r.val) :
    (iblk m c 3 t : S256x1.Idx → EReal) (ix2 r (0 : Fin 1)) = (Gen.V m c main_v17 : S20736x1.Idx → EReal) (ix2 R (0 : Fin 1)) := by
  obtain ⟨e0, e1⟩ := idx_iw t
  show (Gen.V m c main_v17 : S20736x1.Idx → EReal) (((cfg0.win 3).blk t).view.emb (ix2 r (0 : Fin 1))) = _
  refine congrArg (Gen.V m c main_v17 : S20736x1.Idx → EReal) (funext fun a => Fin.ext ?_)
  match a with
  | ⟨0, _⟩ => show win0_3.index t (0 : Fin 2) * 256 + 1 * r.val = R.val; omega
  | ⟨1, _⟩ => show win0_3.index t (1 : Fin 2) * 1 + 1 * 0 = 0; omega

theorem rd_weff (c : Dev nD) (t : Fin cfg0.N) (s : Fin 512) (n : Fin 128) :
    (iblk m c 4 t : S512x128.Idx → EReal) (ix2 s n) = (Gen.V m c main_v40 : S512x128.Idx → EReal) (ix2 s n) := by
  obtain ⟨e0, e1⟩ := idx_weff t
  show (Gen.V m c main_v40 : S512x128.Idx → EReal) (((cfg0.win 4).blk t).view.emb (ix2 s n)) = _
  refine congrArg (Gen.V m c main_v40 : S512x128.Idx → EReal) (funext fun a => Fin.ext ?_)
  match a with
  | ⟨0, _⟩ => show win0_4.index t (0 : Fin 2) * 512 + 1 * s.val = s.val; omega
  | ⟨1, _⟩ => show win0_4.index t (1 : Fin 2) * 128 + 1 * n.val = n.val; omega

theorem rd_hb (c : Dev nD) (t : Fin cfg0.N) (n : Fin 128) :
    (iblk m c 5 t : S1x128.Idx → EReal) (ix2 (0 : Fin 1) n) = (Gen.V m c main_v20 : S1x128.Idx → EReal) (ix2 (0 : Fin 1) n) := by
  obtain ⟨e0, e1⟩ := idx_hb t
  show (Gen.V m c main_v20 : S1x128.Idx → EReal) (((cfg0.win 5).blk t).view.emb (ix2 (0 : Fin 1) n)) = _
  refine congrArg (Gen.V m c main_v20 : S1x128.Idx → EReal) (funext fun a => Fin.ext ?_)
  match a with
  | ⟨0, _⟩ => show win0_5.index t (0 : Fin 2) * 1 + 1 * 0 = 0; omega
  | ⟨1, _⟩ => show win0_5.index t (1 : Fin 2) * 128 + 1 * n.val = n.val; omega

/-- The body's stored value at (r, n) of block t is entry i of `rowsVal`, for any array index i whose row is
    256 t + r and whose column is n. -/
theorem block_entry (c : Dev nD) (t : Fin cfg0.N) (r : Fin 256) (n : Fin 128) (i : S20736x128.Idx)
    (h0 : (i 0).val = t.val * 256 + r.val) (h1 : (i 1).val = n.val) :
    k0_pay1 (F := Ideal) (k0_pay3 (iblk m c 0 t)) (k0_pay7 (iblk m c 0 t) (iblk m c 1 t) (iblk m c 2 t) (iblk m c 4 t) (iblk m c 5 t))
        (k0_pay8 (iblk m c 0 t) (iblk m c 3 t)) (iblk m c 2 t) (ix2 r n)
      = rowsVal m c i := by
  refine (pay_apply (iblk m c 0 t) (iblk m c 1 t) (iblk m c 2 t) (iblk m c 3 t) (iblk m c 4 t) (iblk m c 5 t) r n).trans ?_
  obtain rfl : n = i 1 := Fin.ext h1.symm
  exact refVal_congr (fun s => rd_x m c t r s (i 0) h0) (rd_w m c t r (i 0) h0) (rd_b m c t r (i 0) h0)
    (rd_iw m c t r (i 0) h0) (fun s => rd_weff m c t s (i 1)) (rd_hb m c t (i 1))

/-! ## From the blocks to the array -/

/-- What grid point t writes back is block t of `rowsVal`. -/
theorem flushed_eq (c : Dev nD) (t : Fin cfg0.N) :
    (dats m 0 c).flushed 6 t = ((cfg0.win 6).blk t).view.read (Elt Ideal) (rowsVal m c) := by
  show (cfg0.win 6).cut (grid0.coords t) ((dats m 0 c).after 6 t) = _
  rw [after0_6]
  unfold out0_6
  rw [View.canon_unit_zero zeroOff]
  simp only [View.ld_unit_zero (S := S256x512) zeroOff, View.ld_unit_zero (S := S256x1) zeroOff,
    View.ld_unit_zero (S := S512x128) zeroOff, View.ld_unit_zero (S := S1x128) zeroOff]
  funext j
  have hr : (j 0).val < 256 := (j 0).isLt
  have hn : (j 1).val < 128 := (j 1).isLt
  obtain ⟨e0, e1⟩ := idx_out t
  have hx : (cfg0.win 6).xinj (grid0.coords t) j = ix2 (⟨(j 0).val, hr⟩ : Fin 256) (⟨(j 1).val, hn⟩ : Fin 128) :=
    funext fun a => match a with | ⟨0, _⟩ => rfl | ⟨1, _⟩ => rfl
  refine (congrArg (k0_pay1 (F := Ideal) (k0_pay3 (iblk m c 0 t))
    (k0_pay7 (iblk m c 0 t) (iblk m c 1 t) (iblk m c 2 t) (iblk m c 4 t) (iblk m c 5 t))
    (k0_pay8 (iblk m c 0 t) (iblk m c 3 t)) (iblk m c 2 t)) hx).trans ?_
  exact block_entry m c t ⟨(j 0).val, hr⟩ ⟨(j 1).val, hn⟩ (((cfg0.win 6).blk t).view.emb j)
    (by show win0_6.index t (0 : Fin 2) * 256 + 1 * (j 0).val = t.val * 256 + (j 0).val; omega)
    (by show win0_6.index t (1 : Fin 2) * 128 + 1 * (j 1).val = (j 1).val; omega)

/-- An index of the output array is in point t's block iff each coordinate is in the block's range on its axis. -/
theorem mem_blk (t : Fin cfg0.N) (i : S20736x128.Idx) :
    i ∈ ((cfg0.win 6).blk t).view.set ↔ ∀ a : Fin 2, win0_6.index t a * S256x128.size a ≤ (i a).val
      ∧ (i a).val < win0_6.index t a * S256x128.size a + S256x128.size a := by
  show i ∈ ((View.whole main_v41).slice (win0_6.rect t)).set ↔ _
  rw [View.set_slice_whole, Rect.mem_set_unit]
  exact Iff.rfl

/-- The 81 blocks of 256 rows tile the 20736 rows: row R lies in the block of point R / 256. -/
theorem cover (i : S20736x128.Idx) :
    ∃ t : Fin cfg0.N, (cfg0.win 6).flush t = true ∧ i ∈ ((cfg0.win 6).blk t).view.set := by
  have hi0 : (i 0).val < 20736 := (i 0).isLt
  have hi1 : (i 1).val < 128 := (i 1).isLt
  have hN : (i 0).val / 256 < cfg0.N := Nat.lt_of_lt_of_eq (by omega : (i 0).val / 256 < 81) N_0.symm
  obtain ⟨t, ht⟩ : ∃ t : Fin cfg0.N, t.val = (i 0).val / 256 := ⟨⟨(i 0).val / 256, hN⟩, rfl⟩
  obtain ⟨e0, e1⟩ := idx_out t
  refine ⟨t, flush0_6 t, ?_⟩
  rw [mem_blk]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 128 ≤ (i 1).val ∧ (i 1).val < win0_6.index t (1 : Fin 2) * 128 + 128
    omega

/-- The call's output array after the run is `rowsVal`. -/
theorem final6 (c : Dev nD) : (dats m 0 c).arrAt 6 cfg0.N = rowsVal m c :=
  (dats m 0 c).arrAt_eq_of_cover 6 (rowsVal m c) (fun t _ => flushed_eq m c t) cover

/-! ## On the data rows and unpadded columns: the reference's result -/

/-- Row 321 bb + k holds the series of batch entry bb and channel k with that channel's parameters, and column n < 96
    of the folded weight and head bias are the unpadded ones: the entry is the reference's value at (bb, n, k). -/
theorem rowsVal_apply (c : Dev nD) (bb : Fin 64) (n : Fin 96) (k : Fin 321) :
    rowsVal m c (ix2 (Cert.Rose.row bb k) (Cert.Rose.up n))
      = Cert.Rose.outRat (aX m c) (aW m c) (aB m c) (aHW m c) (aHB m c) bb n k := by
  unfold Cert.Rose.outRat Cert.Rose.col
  exact refVal_congr (fun s => V_x m c bb k s) (V_w m c bb k) (V_b m c bb k) (V_iw m c bb k)
    (fun s => V_weff m c s (Cert.Rose.up n)) (V_hb m c (Cert.Rose.up n))

/-- The call's output array after the run, on a data row and an unpadded column. -/
theorem final6_apply (c : Dev nD) (bb : Fin 64) (n : Fin 96) (k : Fin 321) :
    ((Gen.dats m 0 c).arrAt 6 cfg0.N : S20736x128.Idx → EReal) (ix2 (Cert.Rose.row bb k) (Cert.Rose.up n))
      = Cert.Rose.outRat (aX m c) (aW m c) (aB m c) (aHW m c) (aHB m c) bb n k :=
  (congrFun (final6 m c) (ix2 (Cert.Rose.row bb k) (Cert.Rose.up n))).trans (rowsVal_apply m c bb n k)

/-! ## The wrapper after the call: keep rows below 20544 and columns below 96, split the rows into (batch, channel),
    swap the last two axes -/

/-- The wrapper's three layout operations after the call, as one function of the call's output array. -/
def unpack (A : S20736x128.Idx → EReal) : S64x96x321.Idx → EReal :=
  transpose S64x96x321 [0, 2, 1]
    (shapeCast S64x321x96 (extractStridedSlice S20544x96 ![0, 0] A slices_S20736x128_S20544x96_0_0)
      shapeCasts_S20544x96_S64x321x96)
    transposes_S64x321x96_S64x96x321_0_2_1

/-- Entry (bb, n, k) of the result is entry (321 bb + k, n) of the array: the transpose reads (bb, k, n), the reshape
    reads row-major position ((321 bb + k) 96 + n) of the sliced array, the slice starts at (0, 0). -/
theorem unpack_apply (A : S20736x128.Idx → EReal) (bb : Fin 64) (n : Fin 96) (k : Fin 321) :
    unpack A (ix3 bb n k) = A (ix2 (Cert.Rose.row bb k) (Cert.Rose.up n)) := by
  unfold unpack
  refine (transpose_ix3_021_apply _ _ bb n k).trans ?_
  refine (shapeCast_apply _ _ (ix3 bb k n) (ix2 (⟨321 * bb.val + k.val, by omega⟩ : Fin 20544) n) ?_).trans ?_
  · rw [Shape.rowMajor_val_two, Shape.rowMajor_val_three]
    show (321 * bb.val + k.val) * 96 + n.val = (bb.val * 321 + k.val) * 96 + n.val
    omega
  · exact extractStridedSlice_apply _ _ _ _ (ix2 (Cert.Rose.row bb k) (Cert.Rose.up n)) (fun a => match a with
      | ⟨0, _⟩ => by show 321 * bb.val + k.val = 0 + (321 * bb.val + k.val); omega
      | ⟨1, _⟩ => by show n.val = 0 + n.val; omega)

/-- The wrapper's result buffer after its last operations, from any contents of the buffers before them. -/
theorem after_unpack (W : Valuation τ sig (Elt Ideal)) :
    StableHlo.after (hostOps1 (F := Ideal)) W (Proc.devRef .tc main_v44) = unpack (W (Proc.devRef .tc main_v41)) := by
  after_results
  rfl

/-- Unpacked, `rowsVal` is the reference's result. -/
theorem unpack_rowsVal (c : Dev nD) :
    unpack (rowsVal m c) = Cert.Rose.outR (aX m c) (aW m c) (aB m c) (aHW m c) (aHB m c) := by
  funext i
  refine (congrArg (unpack (rowsVal m c)) (eq_ix3 i)).trans ?_
  refine (unpack_apply (rowsVal m c) (i 0) (i 1) (i 2)).trans ?_
  exact rowsVal_apply m c (i 0) (i 1) (i 2)

/-- The result after the wrapper's tail. -/
theorem tail_out (c : Dev nD) :
    Pipeline.afterTail₀ cfgs (dats m) 0 (V0 m) [hostOps1] c main_v44
      = Cert.Rose.outR (aX m c) (aW m c) (aB m c) (aHW m c) (aHB m c) := by
  unfold Pipeline.afterTail₀
  show StableHlo.after hostOps1 _ (Proc.devRef .tc main_v44) = _
  refine (after_unpack _).trans ?_
  refine (congrArg unpack ((Pipeline.withArrays_arr spec0 launch0.win.arr_inj c (V0 m c) (fun w => (dats m 0 c).arrAt w cfg0.N) 6).trans (final6 m c))).trans ?_
  exact unpack_rowsVal m c

/-- The two scalar results are the constant zero. -/
theorem tail_zero1 (c : Dev nD) :
    Pipeline.afterTail₀ cfgs (dats m) 0 (V0 m) [hostOps1] c main_cst_11 = Cert.Rose.zeroS := by
  unfold Pipeline.afterTail₀
  show StableHlo.after hostOps1 _ (Proc.devRef .tc main_cst_11) = _
  after_results
  all_goals rfl
theorem tail_zero2 (c : Dev nD) :
    Pipeline.afterTail₀ cfgs (dats m) 0 (V0 m) [hostOps1] c main_cst_12 = Cert.Rose.zeroS := by
  unfold Pipeline.afterTail₀
  show StableHlo.after hostOps1 _ (Proc.devRef .tc main_cst_12) = _
  after_results
  all_goals rfl

/-- Every weakly fair execution ends with the three results at these values and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = Cert.Rose.outR (aX m c) (aW m c) (aB m c) (aHW m c) (aHB m c)
      ∧ r.2.mem ((c.tc : Thread nD τ).loc main_cst_11) = Cert.Rose.zeroS
      ∧ r.2.mem ((c.tc : Thread nD τ).loc main_cst_12) = Cert.Rose.zeroS
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨((h c).2 main_v44 (Pipeline.mem_restRefs_of main_v44 (by decide) (by decide))).trans (tail_out m c),
      ((h c).2 main_cst_11 (Pipeline.mem_restRefs_of main_cst_11 (by decide) (by decide))).trans (tail_zero1 m c),
      ((h c).2 main_cst_12 (Pipeline.mem_restRefs_of main_cst_12 (by decide) (by decide))).trans (tail_zero2 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (Gen.run_main m ρ)

end Cert.ReferenceIdeal.RoseR

end
-- ==== Proof.lean ====
/-
  The certificate's five claims. The three frames are the generated frame runs. The idealization rewrote nothing, so
  `preserves` is trivial. For `algebraic`: the kernel program ends with its prediction at `outK` of the arguments and
  the reference program with its prediction at `outR` of the same arguments; the precondition makes every input entry a
  real number, and on real inputs `outK = outR` (the sum over the normalised series distributes, and the folded weight's
  column sums are the head weight's). Both programs also return two zero scalars.
-/
import proofs.«155378_g2000605969816161_pallasbulk_1287_4_alg».proof.Defs
import proofs.«155378_g2000605969816161_pallasbulk_1287_4_alg».proof.Proof.Gen.Kernel
import proofs.«155378_g2000605969816161_pallasbulk_1287_4_alg».proof.Proof.Gen.Kernel.Skeleton
import proofs.«155378_g2000605969816161_pallasbulk_1287_4_alg».proof.Proof.Gen.Kernel.Launch
import proofs.«155378_g2000605969816161_pallasbulk_1287_4_alg».proof.Proof.Gen.Kernel.Points
import proofs.«155378_g2000605969816161_pallasbulk_1287_4_alg».proof.Proof.Gen.Kernel.Frame
import proofs.«155378_g2000605969816161_pallasbulk_1287_4_alg».proof.Proof.Gen.KernelIdeal
import proofs.«155378_g2000605969816161_pallasbulk_1287_4_alg».proof.Proof.Gen.KernelIdeal.Skeleton
import proofs.«155378_g2000605969816161_pallasbulk_1287_4_alg».proof.Proof.Gen.KernelIdeal.Launch
import proofs.«155378_g2000605969816161_pallasbulk_1287_4_alg».proof.Proof.Gen.KernelIdeal.Points
import proofs.«155378_g2000605969816161_pallasbulk_1287_4_alg».proof.Proof.Gen.KernelIdeal.Frame
import proofs.«155378_g2000605969816161_pallasbulk_1287_4_alg».proof.Proof.Gen.ReferenceIdeal
import proofs.«155378_g2000605969816161_pallasbulk_1287_4_alg».proof.Proof.Gen.ReferenceIdeal.Skeleton
import proofs.«155378_g2000605969816161_pallasbulk_1287_4_alg».proof.Proof.Gen.ReferenceIdeal.Launch
import proofs.«155378_g2000605969816161_pallasbulk_1287_4_alg».proof.Proof.Gen.ReferenceIdeal.Points
import proofs.«155378_g2000605969816161_pallasbulk_1287_4_alg».proof.Proof.Gen.ReferenceIdeal.Frame
import proofs.«155378_g2000605969816161_pallasbulk_1287_4_alg».proof.Proof.Gen.Pre_finite_inputs
import Idealize.ShloMosaic.Adequacy
import Idealize.ShloMosaic.Init
import proofs.«155378_g2000605969816161_pallasbulk_1287_4_alg».proof.Proof.RoseMain
import proofs.«155378_g2000605969816161_pallasbulk_1287_4_alg».proof.Proof.RoseFinite
import proofs.«155378_g2000605969816161_pallasbulk_1287_4_alg».proof.Proof.KValue
import proofs.«155378_g2000605969816161_pallasbulk_1287_4_alg».proof.Proof.RValue

noncomputable section

namespace Cert.Proof

open Idealize.ShloMosaic Idealize.SL.Sem

/-- The two idealized programs, run from memories that agree on the arguments, end with equal results. -/
theorem algebraic : Cert.algebraic_KernelIdeal_ReferenceIdeal := by
  intro m ρ m' ρ' hpre hagree
  refine ⟨fun c => Cert.Rose.outK (Cert.KernelIdeal.RoseK.aX m c) (Cert.KernelIdeal.RoseK.aW m c) (Cert.KernelIdeal.RoseK.aB m c)
      (Cert.KernelIdeal.RoseK.aHW m c) (Cert.KernelIdeal.RoseK.aHB m c), fun _ => Cert.Rose.zeroS, fun _ => Cert.Rose.zeroS,
    Cert.KernelIdeal.RoseK.run m ρ, ?_⟩
  refine (θ_run Cert.ReferenceIdeal.defs _ _).mono (fun r h c => ?_) (Cert.ReferenceIdeal.RoseR.run m' ρ')
  obtain ⟨h0, h1, h2, hargs⟩ := h c
  obtain ⟨e0, e1, e2, e3, e4⟩ := hagree c
  obtain ⟨f0, f1, f2, f3, f4⟩ := Cert.Rose.finite_of_pre _ _ _ _ _ (hpre c)
  refine ⟨h0.trans ?_, h1, h2, hargs⟩
  have ex : Cert.ReferenceIdeal.RoseR.aX m' c = Cert.KernelIdeal.RoseK.aX m c := e0
  have ew : Cert.ReferenceIdeal.RoseR.aW m' c = Cert.KernelIdeal.RoseK.aW m c := e1
  have eb : Cert.ReferenceIdeal.RoseR.aB m' c = Cert.KernelIdeal.RoseK.aB m c := e2
  have ehw : Cert.ReferenceIdeal.RoseR.aHW m' c = Cert.KernelIdeal.RoseK.aHW m c := e3
  have ehb : Cert.ReferenceIdeal.RoseR.aHB m' c = Cert.KernelIdeal.RoseK.aHB m c := e4
  show Cert.Rose.outR (Cert.ReferenceIdeal.RoseR.aX m' c) (Cert.ReferenceIdeal.RoseR.aW m' c) (Cert.ReferenceIdeal.RoseR.aB m' c)
      (Cert.ReferenceIdeal.RoseR.aHW m' c) (Cert.ReferenceIdeal.RoseR.aHB m' c)
    = Cert.Rose.outK (Cert.KernelIdeal.RoseK.aX m c) (Cert.KernelIdeal.RoseK.aW m c) (Cert.KernelIdeal.RoseK.aB m c)
      (Cert.KernelIdeal.RoseK.aHW m c) (Cert.KernelIdeal.RoseK.aHB m c)
  rw [ex, ew, eb, ehw, ehb]
  exact (Cert.Rose.outK_eq_outR _ _ _ _ _ f0 f1 f2 f3 f4).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
